-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)) →
    ∃ (v0 : (c : Dev Cert.KernelIdeal.nD) → Buf (Elt Ideal) ((c.tc : Thread Cert.KernelIdeal.nD Cert.KernelIdeal.τ).loc Cert.KernelIdeal.main_v46)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v46) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v59) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S2x1600000 : Shape := ⟨2, ![2, 1600000]⟩
abbrev S128x128 : Shape := ⟨2, ![128, 128]⟩
abbrev S128 : Shape := ⟨1, ![128]⟩
abbrev S128x2 : Shape := ⟨2, ![128, 2]⟩
abbrev S2 : Shape := ⟨1, ![2]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S128x2 : S_.BroadcastsInDim S128x2 (![] : Fin 0 → Fin S128x2.rank)
  reducesTo_S128x2_S_d0_1 : S128x2.ReducesTo [0, 1] S_
  bcast_S_S2 : S_.BroadcastsInDim S2 (![] : Fin 0 → Fin S2.rank)
  reducesTo_S2_S_d0 : S2.ReducesTo [0] S_

variable [Facts]

def fn_part2 {F : FTy → Type} [FloatOps F] (main_arg8 : FVec F S128x2 .f32) (main_arg9 : FVec F S2 .f32) (main_v33 : IVec S_ 1) : IVec S_ 1 :=
  let main_v34 : FVec F S128x2 .f32 := Host.absf main_arg8
  let main_cst_12 : FVec F S_ .f32 := constant S_ .f32 0x7F800000#32
  let main_v35 : FVec F S128x2 .f32 := broadcastInDim S128x2 ![] bcast_S_S128x2 main_cst_12
  let main_v36 : IVec S128x2 1 := cmpf .olt main_v34 main_v35
  let main_c_13 : IVec S_ 1 := constantI S_ 1 1#1
  let main_v37 : IVec S_ 1 := (fun x v => Host.reduce IntOp.andi x v reducesTo_S128x2_S_d0_1 h_S_) main_v36 main_c_13
  let main_v38 : IVec S_ 1 := andi main_v33 main_v37
  let main_v39 : FVec F S2 .f32 := Host.absf main_arg9
  let main_cst_14 : FVec F S_ .f32 := constant S_ .f32 0x7F800000#32
  let main_v40 : FVec F S2 .f32 := broadcastInDim S2 ![] bcast_S_S2 main_cst_14
  let main_v41 : IVec S2 1 := cmpf .olt main_v39 main_v40
  let main_c_15 : IVec S_ 1 := constantI S_ 1 1#1
  let main_v42 : IVec S_ 1 := (fun x v => Host.reduce IntOp.andi x v reducesTo_S2_S_d0 h_S_) main_v41 main_c_15
  let main_v43 : IVec S_ 1 := andi main_v38 main_v42
  main_v43

def fn_part1 {F : FTy → Type} [FloatOps F] (main_arg5 : FVec F S128x128 .f32) (main_arg6 : FVec F S128 .f32) (main_arg7 : FVec F S128x128 .f32) (main_arg8 : FVec F S128x2 .f32) (main_arg9 : FVec F S2 .f32) (main_v13 : IVec S_ 1) (main_v16 : IVec S128x128 1) : IVec S_ 1 :=
  let main_c_5 : IVec S_ 1 := constantI S_ 1 1#1
  let main_v17 : IVec S_ 1 := (fun x v => Host.reduce IntOp.andi x v reducesTo_S128x128_S_d0_1 h_S_) main_v16 main_c_5
  let main_v18 : IVec S_ 1 := andi main_v13 main_v17
  let main_v19 : FVec F S128x128 .f32 := Host.absf main_arg5
  let main_cst_6 : FVec F S_ .f32 := constant S_ .f32 0x7F800000#32
  let main_v20 : FVec F S128x128 .f32 := broadcastInDim S128x128 ![] bcast_S_S128x128 main_cst_6
  let main_v21 : IVec S128x128 1 := cmpf .olt main_v19 main_v20
  let main_c_7 : IVec S_ 1 := constantI S_ 1 1#1
  let main_v22 : IVec S_ 1 := (fun x v => Host.reduce IntOp.andi x v reducesTo_S128x128_S_d0_1 h_S_) main_v21 main_c_7
  let main_v23 : IVec S_ 1 := andi main_v18 main_v22
  let main_v24 : FVec F S128 .f32 := Host.absf main_arg6
  let main_cst_8 : FVec F S_ .f32 := constant S_ .f32 0x7F800000#32
  let main_v25 : FVec F S128 .f32 := broadcastInDim S128 ![] bcast_S_S128 main_cst_8
  let main_v26 : IVec S128 1 := cmpf .olt main_v24 main_v25
  let main_c_9 : IVec S_ 1 := constantI S_ 1 1#1
  let main_v27 : IVec S_ 1 := (fun x v => Host.reduce IntOp.andi x v reducesTo_S128_S_d0 h_S_) main_v26 main_c_9
  let main_v28 : IVec S_ 1 := andi main_v23 main_v27
  let main_v29 : FVec F S128x128 .f32 := Host.absf main_arg7
  let main_cst_10 : FVec F S_ .f32 := constant S_ .f32 0x7F800000#32
  let main_v30 : FVec F S128x128 .f32 := broadcastInDim S128x128 ![] bcast_S_S128x128 main_cst_10
  let main_v31 : IVec S128x128 1 := cmpf .olt main_v29 main_v30
  let main_c_11 : IVec S_ 1 := constantI S_ 1 1#1
  let main_v32 : IVec S_ 1 := (fun x v => Host.reduce IntOp.andi x v reducesTo_S128x128_S_d0_1 h_S_) main_v31 main_c_11
  let main_v33 : IVec S_ 1 := andi main_v28 main_v32
  fn_part2 (F := F) main_arg8 main_arg9 main_v33

def fn {F : FTy → Type} [FloatOps F] (main_arg0 : FVec F S100000x128 .f32) (main_arg1 : IVec S2x1600000 32) (main_arg2 : FVec F S128x128 .f32) (main_arg3 : FVec F S128 .f32) (main_arg4 : FVec F S128x128 .f32) (main_arg5 : FVec F S128x128 .f32) (main_arg6 : FVec F S128 .f32) (main_arg7 : FVec F S128x128 .f32) (main_arg8 : FVec F S128x2 .f32) (main_arg9 : FVec F S2 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S128x128 .f32 := Host.absf main_arg2
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128 .f32 := Host.absf main_arg3
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128x128 .f32 := Host.absf main_arg4
  let main_cst_4 : FVec F S_ .f32 := constant S_ .f32 0x7F800000#32
  let main_v15 : FVec F S128x128 .f32 := broadcastInDim S128x128 ![] bcast_S_S128x128 main_cst_4
  let main_v16 : IVec S128x128 1 := cmpf .olt main_v14 main_v15
  fn_part1 (F := F) main_arg5 main_arg6 main_arg7 main_arg8 main_arg9 main_v13 main_v16
-- ==== Kernel.lean ====
abbrev S100000x128 : Shape := ⟨2, ![100000, 128]⟩
abbrev S2x1600000 : Shape := ⟨2, ![2, 1600000]⟩
abbrev S128x128 : Shape := ⟨2, ![128, 128]⟩
abbrev S128 : Shape := ⟨1, ![128]⟩
abbrev S128x2 : Shape := ⟨2, ![128, 2]⟩
abbrev S2 : Shape := ⟨1, ![2]⟩
abbrev S1x1600000 : Shape := ⟨2, ![1, 1600000]⟩
abbrev S1600000 : Shape := ⟨1, ![1600000]⟩
abbrev S_ : Shape := ⟨0, ![]⟩
abbrev S1600000x1 : Shape := ⟨2, ![1600000, 1]⟩
abbrev S1600000x128 : Shape := ⟨2, ![1600000, 128]⟩
abbrev S100000 : Shape := ⟨1, ![100000]⟩
abbrev S100000x1 : Shape := ⟨2, ![100000, 1]⟩
abbrev S1x128 : Shape := ⟨2, ![1, 128]⟩
abbrev S5000x128 : Shape := ⟨2, ![5000, 128]⟩
abbrev S1x2 : Shape := ⟨2, ![1, 2]⟩
abbrev S100000x2 : Shape := ⟨2, ![100000, 2]⟩
abbrev S5000x2 : Shape := ⟨2, ![5000, 2]⟩

abbrev nBuf : Space → Nat
  | .hbm => 69
  | .vmem => 20
  | .smem => 0
  | _ => 0

abbrev bufTy : (tb : Table) → Fin (tcTables nBuf tb) → BufTy
  | .hbm, ⟨0, _⟩ => ⟨S100000x128, .f32⟩
  | .hbm, ⟨1, _⟩ => ⟨S2x1600000, .i32⟩
  | .hbm, ⟨2, _⟩ => ⟨S128x128, .f32⟩
  | .hbm, ⟨3, _⟩ => ⟨S128, .f32⟩
  | .hbm, ⟨4, _⟩ => ⟨S128x128, .f32⟩
  | .hbm, ⟨5, _⟩ => ⟨S128x128, .f32⟩
  | .hbm, ⟨6, _⟩ => ⟨S128, .f32⟩
  | .hbm, ⟨7, _⟩ => ⟨S128x128, .f32⟩
  | .hbm, ⟨8, _⟩ => ⟨S128x2, .f32⟩
  | .hbm, ⟨9, _⟩ => ⟨S2, .f32⟩
  | .hbm, ⟨10, _⟩ => ⟨S1x1600000, .i32⟩
  | .hbm, ⟨11, _⟩ => ⟨S1600000, .i32⟩
  | .hbm, ⟨12, _⟩ => ⟨S1x1600000, .i32⟩
  | .hbm, ⟨13, _⟩ => ⟨S1600000, .i32⟩
  | .hbm, ⟨14, _⟩ => ⟨S_, .i32⟩
  | .hbm, ⟨15, _⟩ => ⟨S1600000, .i32⟩
  | .hbm, ⟨16, _⟩ => ⟨S1600000, .i1⟩
  | .hbm, ⟨17, _⟩ => ⟨S_, .i32⟩
  | .hbm, ⟨18, _⟩ => ⟨S1600000, .i32⟩
  | .hbm, ⟨19, _⟩ => ⟨S1600000, .i32⟩
  | .hbm, ⟨20, _⟩ => ⟨S1600000, .i32⟩
  | .hbm, ⟨21, _⟩ => ⟨S1600000x1, .i32⟩
  | .hbm, ⟨22, _⟩ => ⟨S1600000x128, .f32⟩
  | .hbm, ⟨23, _⟩ => ⟨S_, .f32⟩
  | .hbm, ⟨24, _⟩ => ⟨S100000x128, .f32⟩
  | .hbm, ⟨25, _⟩ => ⟨S1600000x1, .i32⟩
  | .hbm, ⟨26, _⟩ => ⟨S100000x128, .f32⟩
  | .hbm, ⟨27, _⟩ => ⟨S_, .f32⟩
  | .hbm, ⟨28, _⟩ => ⟨S1600000, .f32⟩
  | .hbm, ⟨29, _⟩ => ⟨S_, .f32⟩
  | .hbm, ⟨30, _⟩ => ⟨S100000, .f32⟩
  | .hbm, ⟨31, _⟩ => ⟨S1600000x1, .i32⟩
  | .hbm, ⟨32, _⟩ => ⟨S100000, .f32⟩
  | .hbm, ⟨33, _⟩ => ⟨S_, .f32⟩
  | .hbm, ⟨34, _⟩ => ⟨S100000, .f32⟩
  | .hbm, ⟨35, _⟩ => ⟨S100000, .f32⟩
  | .hbm, ⟨36, _⟩ => ⟨S100000x1, .f32⟩
  | .hbm, ⟨37, _⟩ => ⟨S100000x128, .f32⟩
  | .hbm, ⟨38, _⟩ => ⟨S100000x128, .f32⟩
  | .hbm, ⟨39, _⟩ => ⟨S1x128, .f32⟩
  | .hbm, ⟨40, _⟩ => ⟨S100000x128, .f32⟩
  | .hbm, ⟨41, _⟩ => ⟨S_, .i32⟩
  | .hbm, ⟨42, _⟩ => ⟨S1600000, .i32⟩
  | .hbm, ⟨43, _⟩ => ⟨S1600000, .i1⟩
  | .hbm, ⟨44, _⟩ => ⟨S_, .i32⟩
  | .hbm, ⟨45, _⟩ => ⟨S1600000, .i32⟩
  | .hbm, ⟨46, _⟩ => ⟨S1600000, .i32⟩
  | .hbm, ⟨47, _⟩ => ⟨S1600000, .i32⟩
  | .hbm, ⟨48, _⟩ => ⟨S1600000x1, .i32⟩
  | .hbm, ⟨49, _⟩ => ⟨S1600000x128, .f32⟩
  | .hbm, ⟨50, _⟩ => ⟨S_, .f32⟩
  | .hbm, ⟨51, _⟩ => ⟨S100000x128, .f32⟩
  | .hbm, ⟨52, _⟩ => ⟨S1600000x1, .i32⟩
  | .hbm, ⟨53, _⟩ => ⟨S100000x128, .f32⟩
  | .hbm, ⟨54, _⟩ => ⟨S_, .f32⟩
  | .hbm, ⟨55, _⟩ => ⟨S1600000, .f32⟩
  | .hbm, ⟨56, _⟩ => ⟨S_, .f32⟩
  | .hbm, ⟨57, _⟩ => ⟨S100000, .f32⟩
  | .hbm, ⟨58, _⟩ => ⟨S1600000x1, .i32⟩
  | .hbm, ⟨59, _⟩ => ⟨S100000, .f32⟩
  | .hbm, ⟨60, _⟩ => ⟨S_, .f32⟩
  | .hbm, ⟨61, _⟩ => ⟨S100000, .f32⟩
  | .hbm, ⟨62, _⟩ => ⟨S100000, .f32⟩
  | .hbm, ⟨63, _⟩ => ⟨S100000x1, .f32⟩
  | .hbm, ⟨64, _⟩ => ⟨S100000x128, .f32⟩
  | .hbm, ⟨65, _⟩ => ⟨S100000x128, .f32⟩
  | .hbm, ⟨66, _⟩ => ⟨S1x128, .f32⟩
  | .hbm, ⟨67, _⟩ => ⟨S1x2, .f32⟩
  | .hbm, ⟨68, _⟩ => ⟨S100000x2, .f32⟩
  | .local _ .vmem, ⟨0, _⟩ => ⟨S5000x128, .f32⟩
  | .local _ .vmem, ⟨1, _⟩ => ⟨S5000x128, .f32⟩
  | .local _ .vmem, ⟨2, _⟩ => ⟨S5000x128, .f32⟩
  | .local _ .vmem, ⟨3, _⟩ => ⟨S5000x128, .f32⟩
  | .local _ .vmem, ⟨4, _⟩ => ⟨S128x128, .f32⟩
  | .local _ .vmem, ⟨5, _⟩ => ⟨S1x128, .f32⟩
  | .local _ .vmem, ⟨6, _⟩ => ⟨S128x128, .f32⟩
  | .local _ .vmem, ⟨7, _⟩ => ⟨S5000x128, .f32⟩
  | .local _ .vmem, ⟨8, _⟩ => ⟨S5000x128, .f32⟩
  | .local _ .vmem, ⟨9, _⟩ => ⟨S5000x128, .f32⟩
  | .local _ .vmem, ⟨10, _⟩ => ⟨S5000x128, .f32⟩
  | .local _ .vmem, ⟨11, _⟩ => ⟨S5000x128, .f32⟩
  | .local _ .vmem, ⟨12, _⟩ => ⟨S5000x128, .f32⟩
  | .local _ .vmem, ⟨13, _⟩ => ⟨S128x128, .f32⟩
  | .local _ .vmem, ⟨14, _⟩ => ⟨S1x128, .f32⟩
  | .local _ .vmem, ⟨15, _⟩ => ⟨S128x128, .f32⟩
  | .local _ .vmem, ⟨16, _⟩ => ⟨S128x2, .f32⟩
  | .local _ .vmem, ⟨17, _⟩ => ⟨S1x2, .f32⟩
  | .local _ .vmem, ⟨18, _⟩ => ⟨S5000x2, .f32⟩
  | .local _ .vmem, ⟨19, _⟩ => ⟨S5000x2, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_c : Ref sig .tc := ⟨.hbm, 14, rfl⟩
abbrev main_v4 : Ref sig .tc := ⟨.hbm, 15, rfl⟩
abbrev main_v5 : Ref sig .tc := ⟨.hbm, 16, rfl⟩
abbrev main_c_0 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_cst : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_cst_1 : Ref sig .tc := ⟨.hbm, 27, rfl⟩
abbrev main_v14 : Ref sig .tc := ⟨.hbm, 28, rfl⟩
abbrev main_cst_2 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_cst_3 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_c_4 : Ref sig .tc := ⟨.hbm, 41, rfl⟩
abbrev main_v25 : Ref sig .tc := ⟨.hbm, 42, rfl⟩
abbrev main_v26 : Ref sig .tc := ⟨.hbm, 43, rfl⟩
abbrev main_c_5 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_v31 : Ref sig .tc := ⟨.hbm, 49, rfl⟩
abbrev main_cst_6 : Ref sig .tc := ⟨.hbm, 50, rfl⟩
abbrev main_v32 : Ref sig .tc := ⟨.hbm, 51, rfl⟩
abbrev main_v33 : Ref sig .tc := ⟨.hbm, 52, rfl⟩
abbrev main_v34 : Ref sig .tc := ⟨.hbm, 53, rfl⟩
abbrev main_cst_7 : Ref sig .tc := ⟨.hbm, 54, rfl⟩
abbrev main_v35 : Ref sig .tc := ⟨.hbm, 55, rfl⟩
abbrev main_cst_8 : Ref sig .tc := ⟨.hbm, 56, rfl⟩
abbrev main_v36 : Ref sig .tc := ⟨.hbm, 57, rfl⟩
abbrev main_v37 : Ref sig .tc := ⟨.hbm, 58, rfl⟩
abbrev main_v38 : Ref sig .tc := ⟨.hbm, 59, rfl⟩
abbrev main_cst_9 : Ref sig .tc := ⟨.hbm, 60, rfl⟩
abbrev main_v39 : Ref sig .tc := ⟨.hbm, 61, rfl⟩
abbrev main_v40 : Ref sig .tc := ⟨.hbm, 62, rfl⟩
abbrev main_v41 : Ref sig .tc := ⟨.hbm, 63, rfl⟩
abbrev main_v42 : Ref sig .tc := ⟨.hbm, 64, rfl⟩
abbrev main_v43 : Ref sig .tc := ⟨.hbm, 65, rfl⟩
abbrev main_v44 : Ref sig .tc := ⟨.hbm, 66, rfl⟩
abbrev main_v45 : Ref sig .tc := ⟨.hbm, 67, rfl⟩
abbrev main_v46 : Ref sig .tc := ⟨.hbm, 68, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc1_stg0_0 : Ref sig .tc := ⟨.vmem, 9, rfl⟩
abbrev cc1_stg0_1 : Ref sig .tc := ⟨.vmem, 10, rfl⟩
abbrev cc1_stg1_0 : Ref sig .tc := ⟨.vmem, 11, rfl⟩
abbrev cc1_stg1_1 : Ref sig .tc := ⟨.vmem, 12, rfl⟩
abbrev cc1_stg2_0 : Ref sig .tc := ⟨.vmem, 13, rfl⟩
abbrev cc1_stg3_0 : Ref sig .tc := ⟨.vmem, 14, rfl⟩
abbrev cc1_stg4_0 : Ref sig .tc := ⟨.vmem, 15, rfl⟩
abbrev cc1_stg5_0 : Ref sig .tc := ⟨.vmem, 16, rfl⟩
abbrev cc1_stg6_0 : Ref sig .tc := ⟨.vmem, 17, rfl⟩
abbrev cc1_stg7_0 : Ref sig .tc := ⟨.vmem, 18, rfl⟩
abbrev cc1_stg7_1 : Ref sig .tc := ⟨.vmem, 19, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem5_1 : DmaSem sig := 8
abbrev cc1_sem0_0 : DmaSem sig := 9
abbrev cc1_sem0_1 : DmaSem sig := 10
abbrev cc1_sem1_0 : DmaSem sig := 11
abbrev cc1_sem1_1 : DmaSem sig := 12
abbrev cc1_sem2_0 : DmaSem sig := 13
abbrev cc1_sem3_0 : DmaSem sig := 14
abbrev cc1_sem4_0 : DmaSem sig := 15
abbrev cc1_sem5_0 : DmaSem sig := 16
abbrev cc1_sem6_0 : DmaSem sig := 17
abbrev cc1_sem7_0 : DmaSem sig := 18
abbrev cc1_sem7_1 : DmaSem sig := 19

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S5000x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S128x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S128x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S5000x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev grid1 : Pipeline.Grid := ⟨1, ![20], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_7 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S128x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S128x128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S128x2 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 1 → Memref sig .tc .vmem S1x2 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev stage1_7 : Fin 2 → Memref sig .tc .vmem S5000x2 .f32 := fun | 0 => Memref.whole cc1_stg7_0 | 1 => Memref.whole cc1_stg7_1 | ⟨_ + 2, h⟩ => absurd h (Nat.not_lt.2 (Nat.le_add_left _ _))
abbrev sem1_7 : Fin 2 → DmaSem sig := fun | 0 => cc1_sem7_0 | 1 => cc1_sem7_1 | ⟨_ + 2, h⟩ => absurd h (Nat.not_lt.2 (Nat.le_add_left _ _))
abbrev reads1_7 : Fin grid1.rank → Bool := ![true]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  bcast_S1600000_S1600000x1_0 : S1600000.BroadcastsInDim S1600000x1 (![0] : Fin 1 → Fin S1600000x1.rank)
  bcast_S_S100000x128 : S_.BroadcastsInDim S100000x128 (![] : Fin 0 → Fin S100000x128.rank)
  bcast_S_S100000 : S_.BroadcastsInDim S100000 (![] : Fin 0 → Fin S100000.rank)
  bcast_S100000_S100000x1_0 : S100000.BroadcastsInDim S100000x1 (![0] : Fin 1 → Fin S100000x1.rank)
  bcast_S100000x1_S100000x128_0_1 : S100000x1.BroadcastsInDim S100000x128 (![0, 1] : Fin 2 → Fin S100000x128.rank)
  shapeCasts_S128_S1x128 : S128.ShapeCasts S1x128
  inb_S5000x128_S5000x128_0_0 : ∀ a, (![0, 0] : Fin 2 → Nat) a + S5000x128.size a ≤ S5000x128.size a
  h_S5000x128 : 0 < S5000x128.numel
  bitsLt_bf16_f32 : FTy.bits .bf16 < FTy.bits .f32
  shapeCasts_S5000x128_S5000x128 : S5000x128.ShapeCasts S5000x128
  inb_S128x128_S128x128_0_0 : ∀ a, (![0, 0] : Fin 2 → Nat) a + S128x128.size a ≤ S128x128.size a
  h_S128x128 : 0 < S128x128.numel
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S5000x128 : S1x128.Broadcasts S5000x128
  shapeCasts_S2_S1x2 : S2.ShapeCasts S1x2
  inb_S128x2_S128x2_0_0 : ∀ a, (![0, 0] : Fin 2 → Nat) a + S128x2.size a ≤ S128x2.size a
  h_S128x2 : 0 < S128x2.numel
  inb_S1x2_S1x2_0_0 : ∀ a, (![0, 0] : Fin 2 → Nat) a + S1x2.size a ≤ S1x2.size a
  h_S1x2 : 0 < S1x2.numel
  shapeCasts_S1x2_S1x2 : S1x2.ShapeCasts S1x2
  broadcasts_S1x2_S5000x2 : S1x2.Broadcasts S5000x2
  inb_S5000x2_S5000x2_0_0 : ∀ a, (![0, 0] : Fin 2 → Nat) a + S5000x2.size a ≤ S5000x2.size a
  h_S5000x2 : 0 < S5000x2.numel
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  scatter_S100000_S1600000x1_S1600000_n_0_0_1_wf : ScatterDims.WF S100000 S1600000x1 S1600000 [] [0] [0] 1
  dot_S5000x128_S128x128_S5000x128_1_0_0_1_n_n_wf : DotDims.WF S5000x128 S128x128 S5000x128 [1] [0] [0] [1] [] []
  dot_S5000x128_S128x2_S5000x2_1_0_0_1_n_n_wf : DotDims.WF S5000x128 S128x2 S5000x2 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S100000x128.size a
  hwx0_0 : ∀ i : grid0.Coords, EltTy.bits .f32 = 32 ∨ (Rect.block (s := S100000x128) S5000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S5000x128.size a ≤ S100000x128.size a
  hwx0_1 : ∀ i : grid0.Coords, EltTy.bits .f32 = 32 ∨ (Rect.block (s := S100000x128) S5000x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x128.size a ≤ S128x128.size a
  hwx0_2 : ∀ i : grid0.Coords, EltTy.bits .f32 = 32 ∨ (Rect.block (s := S128x128) S128x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x128.size a ≤ S1x128.size a
  hwx0_3 : ∀ i : grid0.Coords, EltTy.bits .f32 = 32 ∨ (Rect.block (s := S1x128) S1x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S128x128.size a ≤ S128x128.size a
  hwx0_4 : ∀ i : grid0.Coords, EltTy.bits .f32 = 32 ∨ (Rect.block (s := S128x128) S128x128.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S5000x128.size a ≤ S100000x128.size a
  hwx0_5 : ∀ i : grid0.Coords, EltTy.bits .f32 = 32 ∨ (Rect.block (s := S100000x128) S5000x128.size (cc0_transform_5 i) (hinb0_5 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S100000x128.size a
  hwx1_0 : ∀ i : grid1.Coords, EltTy.bits .f32 = 32 ∨ (Rect.block (s := S100000x128) S5000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x128.size a ≤ S100000x128.size a
  hwx1_1 : ∀ i : grid1.Coords, EltTy.bits .f32 = 32 ∨ (Rect.block (s := S100000x128) S5000x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S128x128.size a ≤ S128x128.size a
  hwx1_2 : ∀ i : grid1.Coords, EltTy.bits .f32 = 32 ∨ (Rect.block (s := S128x128) S128x128.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x128.size a ≤ S1x128.size a
  hwx1_3 : ∀ i : grid1.Coords, EltTy.bits .f32 = 32 ∨ (Rect.block (s := S1x128) S1x128.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S128x128.size a ≤ S128x128.size a
  hwx1_4 : ∀ i : grid1.Coords, EltTy.bits .f32 = 32 ∨ (Rect.block (s := S128x128) S128x128.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S128x2.size a ≤ S128x2.size a
  hwx1_5 : ∀ i : grid1.Coords, EltTy.bits .f32 = 32 ∨ (Rect.block (s := S128x2) S128x2.size (cc1_transform_5 i) (hinb1_5 i)).WholeWords (EltTy.packing .f32)
  hstage1_6 : ∀ j, (stage1_6 j).IsWhole
  nbuf1_6 : grid1.bufCount reads1_6 true = 1
  hreads1_6 : ∀ i i' : grid1.Coords, (∀ a, reads1_6 a = true → i a = i' a) → cc1_transform_6 i = cc1_transform_6 i'
  hinb1_6 : ∀ (i : grid1.Coords) a, (cc1_transform_6 i a + 1) * S1x2.size a ≤ S1x2.size a
  hwx1_6 : ∀ i : grid1.Coords, EltTy.bits .f32 = 32 ∨ (Rect.block (s := S1x2) S1x2.size (cc1_transform_6 i) (hinb1_6 i)).WholeWords (EltTy.packing .f32)
  hstage1_7 : ∀ j, (stage1_7 j).IsWhole
  nbuf1_7 : grid1.bufCount reads1_7 false = 2
  hreads1_7 : ∀ i i' : grid1.Coords, (∀ a, reads1_7 a = true → i a = i' a) → cc1_transform_7 i = cc1_transform_7 i'
  hinb1_7 : ∀ (i : grid1.Coords) a, (cc1_transform_7 i a + 1) * S5000x2.size a ≤ S100000x2.size a
  hwx1_7 : ∀ i : grid1.Coords, EltTy.bits .f32 = 32 ∨ (Rect.block (s := S100000x2) S5000x2.size (cc1_transform_7 i) (hinb1_7 i)).WholeWords (EltTy.packing .f32)

variable [Facts₀]

def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf
def dot_S5000x128_S128x2_S5000x2_1_0_0_1_n_n : DotDims S5000x128 S128x2 S5000x2 where
  lhsContracting := [1]
  rhsContracting := [0]
  lhsNonContracting := [0]
  rhsNonContracting := [1]
  lhsBatch := []
  rhsBatch := []
  wf := dot_S5000x128_S128x2_S5000x2_1_0_0_1_n_n_wf

abbrev win0_0 : Pipeline.Window sig grid0 :=
  Pipeline.Window.ofSpec (Memref.whole main_arg0) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v22) S5000x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S128x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v23) S1x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg4) S128x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v24) S5000x128.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev win1_0 : Pipeline.Window sig grid1 :=
  Pipeline.Window.ofSpec (Memref.whole main_v24) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v43) S5000x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_arg5) S128x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v44) S1x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_arg7) S128x128.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_arg8) S128x2.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v45) S1x2.size cc1_transform_6 reads1_6 false true 1 stage1_6 sem1_6
    hrank1 hreads1_6 hinb1_6 nbuf1_6 (Memref.isWhole_whole _) hwx1_6 hstage1_6

abbrev win1_7 : Pipeline.Window sig grid1 :=
  Pipeline.Window.ofSpec (Memref.whole main_v46) S5000x2.size cc1_transform_7 reads1_7 true false 2 stage1_7 sem1_7
    hrank1 hreads1_7 hinb1_7 nbuf1_7 (Memref.isWhole_whole _) hwx1_7 hstage1_7

abbrev win1 : Fin 8 → Pipeline.Window sig grid1 := fun | 0 => win1_0 | 1 => win1_1 | 2 => win1_2 | 3 => win1_3 | 4 => win1_4 | 5 => win1_5 | 6 => win1_6 | 7 => win1_7 | ⟨_ + 8, h⟩ => absurd h (Nat.not_lt.2 (Nat.le_add_left _ _))
abbrev spec1 : Fin 8 → Pipeline.WinSpec sig grid1.rank := fun w => (win1 w).toWinSpec

class Facts : Prop extends Facts₀ where

variable [Facts]
-- ==== ReferenceIdeal.lean ====
abbrev S100000x128 : Shape := ⟨2, ![100000, 128]⟩
abbrev S2x1600000 : Shape := ⟨2, ![2, 1600000]⟩
abbrev S128x128 : Shape := ⟨2, ![128, 128]⟩
abbrev S128 : Shape := ⟨1, ![128]⟩
abbrev S128x2 : Shape := ⟨2, ![128, 2]⟩
abbrev S2 : Shape := ⟨1, ![2]⟩
abbrev S1x1600000 : Shape := ⟨2, ![1, 1600000]⟩
abbrev S1600000 : Shape := ⟨1, ![1600000]⟩
abbrev S_ : Shape := ⟨0, ![]⟩
abbrev S1600000x1 : Shape := ⟨2, ![1600000, 1]⟩
abbrev S1600000x128 : Shape := ⟨2, ![1600000, 128]⟩
abbrev S100000 : Shape := ⟨1, ![100000]⟩
abbrev S100000x1 : Shape := ⟨2, ![100000, 1]⟩
abbrev S1x128 : Shape := ⟨2, ![1, 128]⟩
abbrev S100000x2 : Shape := ⟨2, ![100000, 2]⟩
abbrev S1x2 : Shape := ⟨2, ![1, 2]⟩

abbrev nBuf : Space → Nat
  | .hbm => 86
  | .vmem => 0
  | .smem => 0
  | _ => 0

abbrev bufTy : (tb : Table) → Fin (tcTables nBuf tb) → BufTy
  | .hbm, ⟨0, _⟩ => ⟨S100000x128, .f32⟩
  | .hbm, ⟨1, _⟩ => ⟨S2x1600000, .i32⟩
  | .hbm, ⟨2, _⟩ => ⟨S128x128, .f32⟩
  | .hbm, ⟨3, _⟩ => ⟨S128, .f32⟩
  | .hbm, ⟨4, _⟩ => ⟨S128x128, .f32⟩
  | .hbm, ⟨5, _⟩ => ⟨S128x128, .f32⟩
  | .hbm, ⟨6, _⟩ => ⟨S128, .f32⟩
  | .hbm, ⟨7, _⟩ => ⟨S128x128, .f32⟩
  | .hbm, ⟨8, _⟩ => ⟨S128x2, .f32⟩
  | .hbm, ⟨9, _⟩ => ⟨S2, .f32⟩
  | .hbm, ⟨10, _⟩ => ⟨S1x1600000, .i32⟩
  | .hbm, ⟨11, _⟩ => ⟨S1600000, .i32⟩
  | .hbm, ⟨12, _⟩ => ⟨S1x1600000, .i32⟩
  | .hbm, ⟨13, _⟩ => ⟨S1600000, .i32⟩
  | .hbm, ⟨14, _⟩ => ⟨S_, .i32⟩
  | .hbm, ⟨15, _⟩ => ⟨S1600000, .i32⟩
  | .hbm, ⟨16, _⟩ => ⟨S1600000, .i1⟩
  | .hbm, ⟨17, _⟩ => ⟨S_, .i32⟩
  | .hbm, ⟨18, _⟩ => ⟨S1600000, .i32⟩
  | .hbm, ⟨19, _⟩ => ⟨S1600000, .i32⟩
  | .hbm, ⟨20, _⟩ => ⟨S1600000, .i32⟩
  | .hbm, ⟨21, _⟩ => ⟨S1600000x1, .i32⟩
  | .hbm, ⟨22, _⟩ => ⟨S1600000x128, .f32⟩
  | .hbm, ⟨23, _⟩ => ⟨S_, .f32⟩
  | .hbm, ⟨24, _⟩ => ⟨S100000x128, .f32⟩
  | .hbm, ⟨25, _⟩ => ⟨S1600000x1, .i32⟩
  | .hbm, ⟨26, _⟩ => ⟨S100000x128, .f32⟩
  | .hbm, ⟨27, _⟩ => ⟨S_, .f32⟩
  | .hbm, ⟨28, _⟩ => ⟨S1600000, .f32⟩
  | .hbm, ⟨29, _⟩ => ⟨S_, .f32⟩
  | .hbm, ⟨30, _⟩ => ⟨S100000, .f32⟩
  | .hbm, ⟨31, _⟩ => ⟨S1600000x1, .i32⟩
  | .hbm, ⟨32, _⟩ => ⟨S100000, .f32⟩
  | .hbm, ⟨33, _⟩ => ⟨S_, .f32⟩
  | .hbm, ⟨34, _⟩ => ⟨S100000, .f32⟩
  | .hbm, ⟨35, _⟩ => ⟨S100000, .f32⟩
  | .hbm, ⟨36, _⟩ => ⟨S100000x1, .f32⟩
  | .hbm, ⟨37, _⟩ => ⟨S100000x128, .f32⟩
  | .hbm, ⟨38, _⟩ => ⟨S100000x128, .f32⟩
  | .hbm, ⟨39, _⟩ => ⟨S100000x128, .f32⟩
  | .hbm, ⟨40, _⟩ => ⟨S1x128, .f32⟩
  | .hbm, ⟨41, _⟩ => ⟨S100000x128, .f32⟩
  | .hbm, ⟨42, _⟩ => ⟨S100000x128, .f32⟩
  | .hbm, ⟨43, _⟩ => ⟨S100000x128, .f32⟩
  | .hbm, ⟨44, _⟩ => ⟨S100000x128, .f32⟩
  | .hbm, ⟨45, _⟩ => ⟨S_, .f32⟩
  | .hbm, ⟨46, _⟩ => ⟨S100000x128, .f32⟩
  | .hbm, ⟨47, _⟩ => ⟨S100000x128, .f32⟩
  | .hbm, ⟨48, _⟩ => ⟨S_, .i32⟩
  | .hbm, ⟨49, _⟩ => ⟨S1600000, .i32⟩
  | .hbm, ⟨50, _⟩ => ⟨S1600000, .i1⟩
  | .hbm, ⟨51, _⟩ => ⟨S_, .i32⟩
  | .hbm, ⟨52, _⟩ => ⟨S1600000, .i32⟩
  | .hbm, ⟨53, _⟩ => ⟨S1600000, .i32⟩
  | .hbm, ⟨54, _⟩ => ⟨S1600000, .i32⟩
  | .hbm, ⟨55, _⟩ => ⟨S1600000x1, .i32⟩
  | .hbm, ⟨56, _⟩ => ⟨S1600000x128, .f32⟩
  | .hbm, ⟨57, _⟩ => ⟨S_, .f32⟩
  | .hbm, ⟨58, _⟩ => ⟨S100000x128, .f32⟩
  | .hbm, ⟨59, _⟩ => ⟨S1600000x1, .i32⟩
  | .hbm, ⟨60, _⟩ => ⟨S100000x128, .f32⟩
  | .hbm, ⟨61, _⟩ => ⟨S_, .f32⟩
  | .hbm, ⟨62, _⟩ => ⟨S1600000, .f32⟩
  | .hbm, ⟨63, _⟩ => ⟨S_, .f32⟩
  | .hbm, ⟨64, _⟩ => ⟨S100000, .f32⟩
  | .hbm, ⟨65, _⟩ => ⟨S1600000x1, .i32⟩
  | .hbm, ⟨66, _⟩ => ⟨S100000, .f32⟩
  | .hbm, ⟨67, _⟩ => ⟨S_, .f32⟩
  | .hbm, ⟨68, _⟩ => ⟨S100000, .f32⟩
  | .hbm, ⟨69, _⟩ => ⟨S100000, .f32⟩
  | .hbm, ⟨70, _⟩ => ⟨S100000x1, .f32⟩
  | .hbm, ⟨71, _⟩ => ⟨S100000x128, .f32⟩
  | .hbm, ⟨72, _⟩ => ⟨S100000x128, .f32⟩
  | .hbm, ⟨73, _⟩ => ⟨S100000x128, .f32⟩
  | .hbm, ⟨74, _⟩ => ⟨S1x128, .f32⟩
  | .hbm, ⟨75, _⟩ => ⟨S100000x128, .f32⟩
  | .hbm, ⟨76, _⟩ => ⟨S100000x128, .f32⟩
  | .hbm, ⟨77, _⟩ => ⟨S100000x128, .f32⟩
  | .hbm, ⟨78, _⟩ => ⟨S100000x128, .f32⟩
  | .hbm, ⟨79, _⟩ => ⟨S_, .f32⟩
  | .hbm, ⟨80, _⟩ => ⟨S100000x128, .f32⟩
  | .hbm, ⟨81, _⟩ => ⟨S100000x128, .f32⟩
  | .hbm, ⟨82, _⟩ => ⟨S100000x2, .f32⟩
  | .hbm, ⟨83, _⟩ => ⟨S1x2, .f32⟩
  | .hbm, ⟨84, _⟩ => ⟨S100000x2, .f32⟩
  | .hbm, ⟨85, _⟩ => ⟨S100000x2, .f32⟩
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_c : Ref sig .tc := ⟨.hbm, 14, rfl⟩
abbrev main_v4 : Ref sig .tc := ⟨.hbm, 15, rfl⟩
abbrev main_v5 : Ref sig .tc := ⟨.hbm, 16, rfl⟩
abbrev main_c_0 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_cst : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_cst_1 : Ref sig .tc := ⟨.hbm, 27, rfl⟩
abbrev main_v14 : Ref sig .tc := ⟨.hbm, 28, rfl⟩
abbrev main_cst_2 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_cst_3 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_call0_cst : Ref sig .tc := ⟨.hbm, 45, rfl⟩
abbrev main_call0_v0 : Ref sig .tc := ⟨.hbm, 46, rfl⟩
abbrev main_v29 : Ref sig .tc := ⟨.hbm, 47, rfl⟩
abbrev main_c_4 : Ref sig .tc := ⟨.hbm, 48, rfl⟩
abbrev main_v30 : Ref sig .tc := ⟨.hbm, 49, rfl⟩
abbrev main_v31 : Ref sig .tc := ⟨.hbm, 50, rfl⟩
abbrev main_c_5 : Ref sig .tc := ⟨.hbm, 51, rfl⟩
abbrev main_v32 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_cst_6 : Ref sig .tc := ⟨.hbm, 57, rfl⟩
abbrev main_v37 : Ref sig .tc := ⟨.hbm, 58, rfl⟩
abbrev main_v38 : Ref sig .tc := ⟨.hbm, 59, rfl⟩
abbrev main_v39 : Ref sig .tc := ⟨.hbm, 60, rfl⟩
abbrev main_cst_7 : Ref sig .tc := ⟨.hbm, 61, rfl⟩
abbrev main_v40 : Ref sig .tc := ⟨.hbm, 62, rfl⟩
abbrev main_cst_8 : Ref sig .tc := ⟨.hbm, 63, rfl⟩
abbrev main_v41 : Ref sig .tc := ⟨.hbm, 64, rfl⟩
abbrev main_v42 : Ref sig .tc := ⟨.hbm, 65, rfl⟩
abbrev main_v43 : Ref sig .tc := ⟨.hbm, 66, rfl⟩
abbrev main_cst_9 : Ref sig .tc := ⟨.hbm, 67, rfl⟩
abbrev main_v44 : Ref sig .tc := ⟨.hbm, 68, rfl⟩
abbrev main_v45 : Ref sig .tc := ⟨.hbm, 69, rfl⟩
abbrev main_v46 : Ref sig .tc := ⟨.hbm, 70, rfl⟩
abbrev main_v47 : Ref sig .tc := ⟨.hbm, 71, rfl⟩
abbrev main_v48 : Ref sig .tc := ⟨.hbm, 72, rfl⟩
abbrev main_v49 : Ref sig .tc := ⟨.hbm, 73, rfl⟩
abbrev main_v50 : Ref sig .tc := ⟨.hbm, 74, rfl⟩
abbrev main_v51 : Ref sig .tc := ⟨.hbm, 75, rfl⟩
abbrev main_v52 : Ref sig .tc := ⟨.hbm, 76, rfl⟩
abbrev main_v53 : Ref sig .tc := ⟨.hbm, 77, rfl⟩
abbrev main_v54 : Ref sig .tc := ⟨.hbm, 78, rfl⟩
abbrev main_call1_cst : Ref sig .tc := ⟨.hbm, 79, rfl⟩
abbrev main_call1_v0 : Ref sig .tc := ⟨.hbm, 80, rfl⟩
abbrev main_v55 : Ref sig .tc := ⟨.hbm, 81, rfl⟩
abbrev main_v56 : Ref sig .tc := ⟨.hbm, 82, rfl⟩
abbrev main_v57 : Ref sig .tc := ⟨.hbm, 83, rfl⟩
abbrev main_v58 : Ref sig .tc := ⟨.hbm, 84, rfl⟩
abbrev main_v59 : Ref sig .tc := ⟨.hbm, 85, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  bcast_S1600000_S1600000x1_0 : S1600000.BroadcastsInDim S1600000x1 (![0] : Fin 1 → Fin S1600000x1.rank)
  bcast_S_S100000x128 : S_.BroadcastsInDim S100000x128 (![] : Fin 0 → Fin S100000x128.rank)
  bcast_S_S100000 : S_.BroadcastsInDim S100000 (![] : Fin 0 → Fin S100000.rank)
  bcast_S100000_S100000x1_0 : S100000.BroadcastsInDim S100000x1 (![0] : Fin 1 → Fin S100000x1.rank)
  bcast_S100000x1_S100000x128_0_1 : S100000x1.BroadcastsInDim S100000x128 (![0, 1] : Fin 2 → Fin S100000x128.rank)
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  bcast_S2_S1x2_1 : S2.BroadcastsInDim S1x2 (![1] : Fin 1 → Fin S1x2.rank)
  bcast_S1x2_S100000x2_0_1 : S1x2.BroadcastsInDim S100000x2 (![0, 1] : Fin 2 → Fin S100000x2.rank)
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  scatter_S100000_S1600000x1_S1600000_n_0_0_1_wf : ScatterDims.WF S100000 S1600000x1 S1600000 [] [0] [0] 1
  dot_S100000x128_S128x128_S100000x128_1_0_0_1_n_n_wf : DotDims.WF S100000x128 S128x128 S100000x128 [1] [0] [0] [1] [] []
  dot_S100000x128_S128x2_S100000x2_1_0_0_1_n_n_wf : DotDims.WF S100000x128 S128x2 S100000x2 [1] [0] [0] [1] [] []

variable [Facts₀]

def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf
def dot_S100000x128_S128x2_S100000x2_1_0_0_1_n_n : DotDims S100000x128 S128x2 S100000x2 where
  lhsContracting := [1]
  rhsContracting := [0]
  lhsNonContracting := [0]
  rhsNonContracting := [1]
  lhsBatch := []
  rhsBatch := []
  wf := dot_S100000x128_S128x2_S100000x2_1_0_0_1_n_n_wf

class Facts : Prop extends Facts₀ where

variable [Facts]
-- ==== Proof.LibSideBySide.lean ====
/-
  Two matrix products with a common right factor, laid side by side.

  Over the extended reals, entry (a, b) of the product of an r×k matrix A with a k×n matrix B is the sum over the
  contracted coordinate c of A(a, c) · B(c, b). No rounding and no order of summation is left in it: addition on the
  extended reals is commutative and associative, so the sum is a plain finite sum and nothing here asks that an entry be
  finite.

  A kernel forms such a product on the matrix unit, accumulating into a zero block; the host forms it by a
  dot_general with no accumulator. At the ideal values both are that sum (`kernelProduct_apply`, `hostProduct_apply`),
  whatever float formats the factors were narrowed to on the way, a change of format being the identity there.

  `sideBySide A₁ A₂ B` is the r×w array whose columns 0 … n−1 hold A₁·B and whose columns n … 2n−1 hold A₂·B: what
  concatenating the two products along the column axis gives (`concatenate_products`), and equally what writing one product
  into the left half of a block and the other into the right half gives. Row p of either product depends on row p of its left
  factor alone, so a block of rows of the side-by-side array is the side-by-side array of the blocks of rows (`sideBySide_rows`).
-/
import Idealize.ShloMosaic.Lib.StackMember

noncomputable section

namespace SideBySide

open Idealize.ShloMosaic Idealize.ShloMosaic.ValueIdx

variable {r k n w : Nat}

/-- Entry (a, b) of the product A·B of an r×k and a k×n matrix of extended reals. -/
def entry (A : (⟨2, ![r, k]⟩ : Shape).Idx → EReal) (B : (⟨2, ![k, n]⟩ : Shape).Idx → EReal) (a : Fin r) (b : Fin n) : EReal :=
  ∑ c : Fin k, A (ix2 a c) * B (ix2 c b)

/-- The host's product of an r×k by a k×n matrix (rows by columns, one contracted axis), read at (a, b), is that entry. The
    dimension numbers are given as a record equal to the plain one, so that a program's own record fits. -/
theorem hostProduct_apply {φ₁ φ₂ : FTy} (d : DotDims ⟨2, ![r, k]⟩ ⟨2, ![k, n]⟩ ⟨2, ![r, n]⟩) (hd : d = DotDims.plain r k n)
    (prec : Option ContractPrecision) (A : FVec Ideal ⟨2, ![r, k]⟩ φ₁) (B : FVec Ideal ⟨2, ![k, n]⟩ φ₂) (a : Fin r) (b : Fin n) :
    Host.dotGeneral d prec A B (ix2 a b) = entry A B a b := by
  subst hd
  exact StackMember.dotGeneral_plain_apply prec A B a b

/-- The matrix unit's product accumulated into a zero block, read at (a, b), is the same entry: the zero contributes
    nothing to the sum. -/
theorem kernelProduct_apply {φ₁ φ₂ : FTy} (d : DotDims ⟨2, ![r, k]⟩ ⟨2, ![k, n]⟩ ⟨2, ![r, n]⟩) (hd : d = DotDims.plain r k n)
    (prec : Option ContractPrecision) (A : FVec Ideal ⟨2, ![r, k]⟩ φ₁) (B : FVec Ideal ⟨2, ![k, n]⟩ φ₂) (a : Fin r) (b : Fin n) :
    matmul d prec A B (constant (F := Ideal) ⟨2, ![r, n]⟩ .f32 0x00000000#32) (ix2 a b) = entry A B a b := by
  rw [matmul_zero_eq_dotGeneral]
  exact hostProduct_apply d hd prec A B a b

/-- The r×w array with A₁·B in columns 0 … n−1 and A₂·B in columns n … 2n−1 (zero in any column past 2n−1, of which an
    array of width 2n has none). -/
def sideBySide (A₁ A₂ : (⟨2, ![r, k]⟩ : Shape).Idx → EReal) (B : (⟨2, ![k, n]⟩ : Shape).Idx → EReal) :
    (⟨2, ![r, w]⟩ : Shape).Idx → EReal := fun j =>
  if h : (j 1).val < n then entry A₁ B (j 0) ⟨(j 1).val, h⟩
  else if h' : (j 1).val - n < n then entry A₂ B (j 0) ⟨(j 1).val - n, h'⟩ else 0

/-- A column of the left half reads the first product. -/
theorem sideBySide_left (A₁ A₂ : (⟨2, ![r, k]⟩ : Shape).Idx → EReal) (B : (⟨2, ![k, n]⟩ : Shape).Idx → EReal)
    (a : Fin r) (b : Fin w) (hb : b.val < n) :
    sideBySide (w := w) A₁ A₂ B (ix2 a b) = entry A₁ B a ⟨b.val, hb⟩ := by
  show (if h : b.val < n then entry A₁ B a ⟨b.val, h⟩
    else if h' : b.val - n < n then entry A₂ B a ⟨b.val - n, h'⟩ else 0) = _
  rw [dif_pos hb]

/-- A column of the right half reads the second product, n columns to the left. -/
theorem sideBySide_right (A₁ A₂ : (⟨2, ![r, k]⟩ : Shape).Idx → EReal) (B : (⟨2, ![k, n]⟩ : Shape).Idx → EReal)
    (a : Fin r) (b : Fin w) (hb : n ≤ b.val) (hb' : b.val - n < n) :
    sideBySide (w := w) A₁ A₂ B (ix2 a b) = entry A₂ B a ⟨b.val - n, hb'⟩ := by
  show (if h : b.val < n then entry A₁ B a ⟨b.val, h⟩
    else if h' : b.val - n < n then entry A₂ B a ⟨b.val - n, h'⟩ else 0) = _
  rw [dif_neg (Nat.not_lt.2 hb), dif_pos hb']

/-- A column past both halves reads zero. -/
theorem sideBySide_beyond (A₁ A₂ : (⟨2, ![r, k]⟩ : Shape).Idx → EReal) (B : (⟨2, ![k, n]⟩ : Shape).Idx → EReal)
    (a : Fin r) (b : Fin w) (hb : ¬ b.val < n) (hb' : ¬ b.val - n < n) :
    sideBySide (w := w) A₁ A₂ B (ix2 a b) = 0 := by
  show (if h : b.val < n then entry A₁ B a ⟨b.val, h⟩
    else if h' : b.val - n < n then entry A₂ B a ⟨b.val - n, h'⟩ else 0) = _
  rw [dif_neg hb, dif_neg hb']

/-- A block of rows of the side-by-side array is the side-by-side array of that block of rows of each left factor: row p
    of a product depends on row p of its left factor only. Here a₁ and a₂ are rows off … off + r − 1 of A₁ and A₂. -/
theorem sideBySide_rows {R : Nat} (A₁ A₂ : (⟨2, ![R, k]⟩ : Shape).Idx → EReal) (B : (⟨2, ![k, n]⟩ : Shape).Idx → EReal)
    (a₁ a₂ : (⟨2, ![r, k]⟩ : Shape).Idx → EReal) (off : Nat) (hoff : off + r ≤ R)
    (h₁ : ∀ (p : Fin r) (c : Fin k), a₁ (ix2 p c) = A₁ (ix2 ⟨off + p.val, by have := p.isLt; omega⟩ c))
    (h₂ : ∀ (p : Fin r) (c : Fin k), a₂ (ix2 p c) = A₂ (ix2 ⟨off + p.val, by have := p.isLt; omega⟩ c))
    (p : Fin r) (b : Fin w) :
    sideBySide (w := w) a₁ a₂ B (ix2 p b)
      = sideBySide (w := w) A₁ A₂ B (ix2 ⟨off + p.val, by have := p.isLt; omega⟩ b) := by
  have e₁ : ∀ q : Fin n, entry a₁ B p q = entry A₁ B ⟨off + p.val, by have := p.isLt; omega⟩ q := fun q => by
    unfold entry; exact Finset.sum_congr rfl fun c _ => by rw [h₁]
  have e₂ : ∀ q : Fin n, entry a₂ B p q = entry A₂ B ⟨off + p.val, by have := p.isLt; omega⟩ q := fun q => by
    unfold entry; exact Finset.sum_congr rfl fun c _ => by rw [h₂]
  by_cases hb : b.val < n
  · rw [sideBySide_left _ _ _ _ _ hb, sideBySide_left _ _ _ _ _ hb, e₁]
  · by_cases hb' : b.val - n < n
    · rw [sideBySide_right _ _ _ _ _ (Nat.not_lt.1 hb) hb', sideBySide_right _ _ _ _ _ (Nat.not_lt.1 hb) hb', e₂]
    · rw [sideBySide_beyond _ _ _ _ _ hb hb', sideBySide_beyond _ _ _ _ _ hb hb']

/-- The host's two products concatenated along the column axis are the two products side by side. -/
theorem concatenate_products {φ₁ φ₂ : FTy} (d : DotDims ⟨2, ![r, k]⟩ ⟨2, ![k, n]⟩ ⟨2, ![r, n]⟩) (hd : d = DotDims.plain r k n)
    (prec : Option ContractPrecision) (A₁ A₂ : FVec Ideal ⟨2, ![r, k]⟩ φ₁) (B : FVec Ideal ⟨2, ![k, n]⟩ φ₂)
    (hw : w = n + n)
    (h : Shape.Concatenates [(⟨2, ![r, n]⟩ : Shape), (⟨2, ![r, n]⟩ : Shape)] (⟨2, ![r, w]⟩ : Shape) 1) :
    concatenate (⟨2, ![r, w]⟩ : Shape) 1
        [⟨(⟨2, ![r, n]⟩ : Shape), Host.dotGeneral d prec A₁ B⟩, ⟨(⟨2, ![r, n]⟩ : Shape), Host.dotGeneral d prec A₂ B⟩] h
      = sideBySide (w := w) A₁ A₂ B := by
  funext j
  obtain ⟨a, b, rfl⟩ : ∃ (a : Fin r) (b : Fin w), j = ix2 a b := ⟨j 0, j 1, eq_ix2 j⟩
  by_cases hb : b.val < n
  · rw [sideBySide_left A₁ A₂ B a b hb, ← hostProduct_apply d hd prec A₁ B a ⟨b.val, hb⟩]
    exact concatenate_pair_apply_left 1 _ _ h (ix2 a b) rfl (ix2 a ⟨b.val, hb⟩)
      (fun q => by match q with | ⟨0, _⟩ => rfl | ⟨1, _⟩ => rfl)
  · have hb1 : n ≤ b.val := Nat.not_lt.1 hb
    have hb2 : b.val - n < n := by have := b.isLt; omega
    rw [sideBySide_right A₁ A₂ B a b hb1 hb2, ← hostProduct_apply d hd prec A₂ B a ⟨b.val - n, hb2⟩]
    exact concatenate_pair_apply_right 1 _ _ h (ix2 a b) rfl rfl (ix2 a ⟨b.val - n, hb2⟩)
      (fun q hq => by
        match q with
        | ⟨0, _⟩ => rfl
        | ⟨1, _⟩ => exact absurd rfl hq)
      (by show (b.val - n) + n = b.val; omega)

end SideBySide

end
-- ==== Proof.SageSpec.lean ====
/-
  Two rounds of neighbourhood averaging, each followed by an affine map and a rectifier, and a linear read-out: the
  network both programs compute, written entry by entry over the extended reals.

  One round takes the node features h and their neighbourhood means a (both n×128) to
      max(a·Wl + h·Wr + b, 0),
  entry (p, q) being max(Σ_c a(p,c)·Wl(c,q) + Σ_c h(p,c)·Wr(c,q) + b(q), 0). The read-out of hidden features g is
  g·Wfc + bfc. Row p of either depends on row p of h and of a alone, so a block of rows of the result is the result of
  the blocks of rows (`hiddenAt_rows`, `scoreAt_rows`): this is what lets a kernel work through the nodes a block at a
  time.

  The three summands of a round may be added in either order: addition on the extended reals is commutative and
  associative, at infinite entries too (`hiddenAt_reassoc`). Nothing here asks that an entry be finite.

  The neighbourhood mean itself is left abstract (`agg`): the two programs obtain it by the same gather, scatter-add
  and division, and all that matters here is that both apply one and the same function.
-/
import proofs.«149914_j55783035240725_1_alg».proof.Proof.LibSideBySide

noncomputable section

namespace Sage

open Idealize.ShloMosaic Idealize.ShloMosaic.ValueIdx SideBySide

variable {n : Nat}

/-- Entry (p, q) of one round: max(a·Wl + h·Wr + b, 0). -/
def hiddenAt (h a : (⟨2, ![n, 128]⟩ : Shape).Idx → EReal) (Wl Wr : (⟨2, ![128, 128]⟩ : Shape).Idx → EReal)
    (b : (⟨1, ![128]⟩ : Shape).Idx → EReal) (p : Fin n) (q : Fin 128) : EReal :=
  max (entry a Wl p q + entry h Wr p q + b (ix1 q)) 0

/-- One round as an n×128 array. -/
def hidden (h a : (⟨2, ![n, 128]⟩ : Shape).Idx → EReal) (Wl Wr : (⟨2, ![128, 128]⟩ : Shape).Idx → EReal)
    (b : (⟨1, ![128]⟩ : Shape).Idx → EReal) : (⟨2, ![n, 128]⟩ : Shape).Idx → EReal :=
  fun j => hiddenAt h a Wl Wr b (j 0) (j 1)

theorem hidden_apply (h a : (⟨2, ![n, 128]⟩ : Shape).Idx → EReal) (Wl Wr : (⟨2, ![128, 128]⟩ : Shape).Idx → EReal)
    (b : (⟨1, ![128]⟩ : Shape).Idx → EReal) (p : Fin n) (q : Fin 128) :
    hidden h a Wl Wr b (ix2 p q) = hiddenAt h a Wl Wr b p q := rfl

/-- The bias may be added before the second product instead of after it. -/
theorem hiddenAt_reassoc (h a : (⟨2, ![n, 128]⟩ : Shape).Idx → EReal) (Wl Wr : (⟨2, ![128, 128]⟩ : Shape).Idx → EReal)
    (b : (⟨1, ![128]⟩ : Shape).Idx → EReal) (p : Fin n) (q : Fin 128) :
    max (entry a Wl p q + b (ix1 q) + entry h Wr p q) 0 = hiddenAt h a Wl Wr b p q := by
  unfold hiddenAt
  rw [add_right_comm]

/-- Entry (p, q) of the read-out of one round: (max(a·Wl + h·Wr + b, 0))·Wfc + bfc. -/
def scoreAt (h a : (⟨2, ![n, 128]⟩ : Shape).Idx → EReal) (Wl Wr : (⟨2, ![128, 128]⟩ : Shape).Idx → EReal)
    (b : (⟨1, ![128]⟩ : Shape).Idx → EReal) (Wfc : (⟨2, ![128, 2]⟩ : Shape).Idx → EReal)
    (bfc : (⟨1, ![2]⟩ : Shape).Idx → EReal) (p : Fin n) (q : Fin 2) : EReal :=
  entry (hidden h a Wl Wr b) Wfc p q + bfc (ix1 q)

/-- The read-out as an n×2 array. -/
def score (h a : (⟨2, ![n, 128]⟩ : Shape).Idx → EReal) (Wl Wr : (⟨2, ![128, 128]⟩ : Shape).Idx → EReal)
    (b : (⟨1, ![128]⟩ : Shape).Idx → EReal) (Wfc : (⟨2, ![128, 2]⟩ : Shape).Idx → EReal)
    (bfc : (⟨1, ![2]⟩ : Shape).Idx → EReal) : (⟨2, ![n, 2]⟩ : Shape).Idx → EReal :=
  fun j => scoreAt h a Wl Wr b Wfc bfc (j 0) (j 1)

theorem score_apply (h a : (⟨2, ![n, 128]⟩ : Shape).Idx → EReal) (Wl Wr : (⟨2, ![128, 128]⟩ : Shape).Idx → EReal)
    (b : (⟨1, ![128]⟩ : Shape).Idx → EReal) (Wfc : (⟨2, ![128, 2]⟩ : Shape).Idx → EReal)
    (bfc : (⟨1, ![2]⟩ : Shape).Idx → EReal) (p : Fin n) (q : Fin 2) :
    score h a Wl Wr b Wfc bfc (ix2 p q) = scoreAt h a Wl Wr b Wfc bfc p q := rfl

section Rows

variable {R r : Nat}

/-- Row p of a product depends on row p of its left factor only: over a block of rows off … off + r − 1. -/
theorem entry_rows {k m : Nat} (A : (⟨2, ![R, k]⟩ : Shape).Idx → EReal) (a : (⟨2, ![r, k]⟩ : Shape).Idx → EReal)
    (B : (⟨2, ![k, m]⟩ : Shape).Idx → EReal) (off : Nat) (hoff : off + r ≤ R)
    (ha : ∀ (p : Fin r) (c : Fin k), a (ix2 p c) = A (ix2 ⟨off + p.val, by have := p.isLt; omega⟩ c))
    (p : Fin r) (q : Fin m) :
    entry a B p q = entry A B ⟨off + p.val, by have := p.isLt; omega⟩ q := by
  unfold entry
  exact Finset.sum_congr rfl fun c _ => by rw [ha]

/-- A block of rows of one round is the round of the blocks of rows. -/
theorem hiddenAt_rows (H A : (⟨2, ![R, 128]⟩ : Shape).Idx → EReal) (h a : (⟨2, ![r, 128]⟩ : Shape).Idx → EReal)
    (Wl Wr : (⟨2, ![128, 128]⟩ : Shape).Idx → EReal) (b : (⟨1, ![128]⟩ : Shape).Idx → EReal)
    (off : Nat) (hoff : off + r ≤ R)
    (hh : ∀ (p : Fin r) (c : Fin 128), h (ix2 p c) = H (ix2 ⟨off + p.val, by have := p.isLt; omega⟩ c))
    (ha : ∀ (p : Fin r) (c : Fin 128), a (ix2 p c) = A (ix2 ⟨off + p.val, by have := p.isLt; omega⟩ c))
    (p : Fin r) (q : Fin 128) :
    hiddenAt h a Wl Wr b p q = hiddenAt H A Wl Wr b ⟨off + p.val, by have := p.isLt; omega⟩ q := by
  unfold hiddenAt
  rw [entry_rows A a Wl off hoff ha p q, entry_rows H h Wr off hoff hh p q]

/-- A block of rows of the read-out is the read-out of the blocks of rows. -/
theorem scoreAt_rows (H A : (⟨2, ![R, 128]⟩ : Shape).Idx → EReal) (h a : (⟨2, ![r, 128]⟩ : Shape).Idx → EReal)
    (Wl Wr : (⟨2, ![128, 128]⟩ : Shape).Idx → EReal) (b : (⟨1, ![128]⟩ : Shape).Idx → EReal)
    (Wfc : (⟨2, ![128, 2]⟩ : Shape).Idx → EReal) (bfc : (⟨1, ![2]⟩ : Shape).Idx → EReal)
    (off : Nat) (hoff : off + r ≤ R)
    (hh : ∀ (p : Fin r) (c : Fin 128), h (ix2 p c) = H (ix2 ⟨off + p.val, by have := p.isLt; omega⟩ c))
    (ha : ∀ (p : Fin r) (c : Fin 128), a (ix2 p c) = A (ix2 ⟨off + p.val, by have := p.isLt; omega⟩ c))
    (p : Fin r) (q : Fin 2) :
    scoreAt h a Wl Wr b Wfc bfc p q = scoreAt H A Wl Wr b Wfc bfc ⟨off + p.val, by have := p.isLt; omega⟩ q := by
  unfold scoreAt
  rw [entry_rows (hidden H A Wl Wr b) (hidden h a Wl Wr b) Wfc off hoff
    (fun p' c => by rw [hidden_apply, hidden_apply]; exact hiddenAt_rows H A h a Wl Wr b off hoff hh ha p' c) p q]

end Rows

/-- The whole network over 100000 nodes: the first round's features are averaged again for the second, whose read-out
    is the result. `agg` is the neighbourhood mean, the same function in both rounds. -/
def net (agg : ((⟨2, ![100000, 128]⟩ : Shape).Idx → EReal) → (⟨2, ![100000, 128]⟩ : Shape).Idx → EReal)
    (x : (⟨2, ![100000, 128]⟩ : Shape).Idx → EReal)
    (W1l : (⟨2, ![128, 128]⟩ : Shape).Idx → EReal) (b1 : (⟨1, ![128]⟩ : Shape).Idx → EReal)
    (W1r W2l : (⟨2, ![128, 128]⟩ : Shape).Idx → EReal) (b2 : (⟨1, ![128]⟩ : Shape).Idx → EReal)
    (W2r : (⟨2, ![128, 128]⟩ : Shape).Idx → EReal) (Wfc : (⟨2, ![128, 2]⟩ : Shape).Idx → EReal)
    (bfc : (⟨1, ![2]⟩ : Shape).Idx → EReal) : (⟨2, ![100000, 2]⟩ : Shape).Idx → EReal :=
  score (hidden x (agg x) W1l W1r b1) (agg (hidden x (agg x) W1l W1r b1)) W2l W2r b2 Wfc bfc

end Sage

end
-- ==== Proof.Round1.lean ====
/-
  The first round on the matrix unit, read back as one array.

  The kernel walks the 100000 nodes in 20 blocks of 5000 rows. At block t it loads rows 5000·t … 5000·t + 4999 of the
  features x and of the neighbourhood means a, the two 128×128 weight matrices and the bias row whole, and stores
      max(a_blk·Wl + x_blk·Wr + b, 0)
  into the same rows of the output. The factors are narrowed to bfloat16 on the way into the matrix unit, which changes
  nothing over the extended reals, and each product accumulates into a zero block, so entry (p, q) of the stored block is
  max(Σ_c a_blk(p,c)·Wl(c,q) + Σ_c x_blk(p,c)·Wr(c,q) + b(q), 0) (`pay_apply`). Row p of the block is row 5000·t + p of the
  whole arrays, and a round's row depends on that row of its inputs alone, so the block is rows 5000·t … of the round of the
  whole arrays (`flushed_eq`). The 20 blocks tile the output (`covered`), hence the array after the region is that round
  (`final`), whatever the arrays were when the region was entered.
-/
import proofs.«149914_j55783035240725_1_alg».proof.Proof.Gen.KernelIdeal.Frame
import proofs.«149914_j55783035240725_1_alg».proof.Proof.SageSpec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Round1

open Cert.KernelIdeal Cert.KernelIdeal.Gen Idealize.ShloMosaic Idealize.ShloMosaic.TcCoe Idealize.ShloMosaic.ValueIdx
open Idealize.SL.Sem Sage SideBySide
open Idealize.ShloMosaic.Pipeline (Dat Cfg Window)

/-- The matrix unit's dimension numbers are those of a plain rows-by-columns product. -/
theorem dot_plain : dot_S5000x128_S128x128_S5000x128_1_0_0_1_n_n = DotDims.plain 5000 128 128 := rfl

/-- Entry (p, q) of what the body stores, from the blocks it loads: x0 the features, x1 the means, x2 and x4 the two
    weight matrices, x3 the bias row. -/
theorem pay_apply (x0 x1 : Vec Ideal S5000x128 .f32) (x2 x4 : Vec Ideal S128x128 .f32) (x3 : Vec Ideal S1x128 .f32)
    (p : Fin 5000) (q : Fin 128) :
    k0_pay1 (F := Ideal) x0 x1 x2 x4 x3 (ix2 p q)
      = max (entry x1 x2 p q + entry x0 x4 p q + x3 (ix2 (0 : Fin 1) q)) 0 := by
  unfold k0_pay1
  rw [maximumf_apply, addf_apply, addf_apply, broadcast_apply]
  rw [broadcastTo_1b_ab_apply, shapeCast_self, shapeCast_self]
  rw [kernelProduct_apply _ dot_plain, kernelProduct_apply _ dot_plain]
  rw [Ideal.ofBits_def, Ideal.ofBits_zero_f32]
  rfl

/-- A 1×128 row read as a vector of 128 entries. -/
def rowAsVec (r : (⟨2, ![1, 128]⟩ : Shape).Idx → EReal) : (⟨1, ![128]⟩ : Shape).Idx → EReal :=
  fun i => r (ix2 (0 : Fin 1) (i 0))

theorem hz : (![0, 0] : Fin 2 → Nat) = fun _ => 0 := funext fun a => by fin_cases a <;> rfl

/-- The printed index maps over the grid: the row windows sit at block (t, 0), the weights and the bias at block (0, 0). -/
theorem idx_facts : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = t.val ∧ win0_5.index t (1 : Fin 2) = 0 :=
  (by decide +kernel : ∀ t : Fin grid0.N, _)

theorem t_lt (t : Fin cfg0.N) : t.val < 20 := N_0 ▸ t.isLt

section
variable (V : (c : Dev nD) → (b : Ref sig .tc) → Buf (Elt Ideal) ((c : Thread nD τ).loc b))

/-- The features' block at point t is rows 5000·t … of the features. -/
theorem blk_x (c : Dev nD) (t : Fin cfg0.N) (p : Fin 5000) (k : Fin 128) :
    iblk0 V c 0 t (ix2 p k)
      = (V c main_arg0 : S100000x128.Idx → EReal) (ix2 ⟨5000 * t.val + p.val, by have := t_lt t; have := p.isLt; omega⟩ k) := by
  show V c main_arg0 (((cfg0.win 0).blk t).view.emb (ix2 p k)) = _
  refine congrArg _ (funext fun a => Fin.ext ?_)
  obtain ⟨e0, e1, -⟩ := idx_facts t
  match a with
  | ⟨0, _⟩ => show win0_0.index t (0 : Fin 2) * 5000 + 1 * p.val = 5000 * t.val + p.val; omega
  | ⟨1, _⟩ => show win0_0.index t (1 : Fin 2) * 128 + 1 * k.val = k.val; omega

/-- The means' block at point t is rows 5000·t … of the means. -/
theorem blk_a (c : Dev nD) (t : Fin cfg0.N) (p : Fin 5000) (k : Fin 128) :
    iblk0 V c 1 t (ix2 p k)
      = (V c main_v22 : S100000x128.Idx → EReal) (ix2 ⟨5000 * t.val + p.val, by have := t_lt t; have := p.isLt; omega⟩ k) := by
  show V c main_v22 (((cfg0.win 1).blk t).view.emb (ix2 p k)) = _
  refine congrArg _ (funext fun a => Fin.ext ?_)
  obtain ⟨-, -, e0, e1, -⟩ := idx_facts t
  match a with
  | ⟨0, _⟩ => show win0_1.index t (0 : Fin 2) * 5000 + 1 * p.val = 5000 * t.val + p.val; omega
  | ⟨1, _⟩ => show win0_1.index t (1 : Fin 2) * 128 + 1 * k.val = k.val; omega

/-- The first weight matrix's block is the matrix. -/
theorem blk_wl (c : Dev nD) (t : Fin cfg0.N) : iblk0 V c 2 t = (V c main_arg2 : S128x128.Idx → EReal) := by
  funext y
  show V c main_arg2 (((cfg0.win 2).blk t).view.emb y) = _
  refine congrArg _ (funext fun a => Fin.ext ?_)
  obtain ⟨-, -, -, -, e0, e1, -⟩ := idx_facts t
  match a with
  | ⟨0, _⟩ => show win0_2.index t (0 : Fin 2) * 128 + 1 * (y 0).val = (y 0).val; omega
  | ⟨1, _⟩ => show win0_2.index t (1 : Fin 2) * 128 + 1 * (y 1).val = (y 1).val; omega

/-- The bias row's block is the row. -/
theorem blk_b (c : Dev nD) (t : Fin cfg0.N) : iblk0 V c 3 t = (V c main_v23 : S1x128.Idx → EReal) := by
  funext y
  show V c main_v23 (((cfg0.win 3).blk t).view.emb y) = _
  refine congrArg _ (funext fun a => Fin.ext ?_)
  obtain ⟨-, -, -, -, -, -, e0, e1, -⟩ := idx_facts t
  match a with
  | ⟨0, _⟩ => show win0_3.index t (0 : Fin 2) * 1 + 1 * (y 0).val = (y 0).val; omega
  | ⟨1, _⟩ => show win0_3.index t (1 : Fin 2) * 128 + 1 * (y 1).val = (y 1).val; omega

/-- The second weight matrix's block is the matrix. -/
theorem blk_wr (c : Dev nD) (t : Fin cfg0.N) : iblk0 V c 4 t = (V c main_arg4 : S128x128.Idx → EReal) := by
  funext y
  show V c main_arg4 (((cfg0.win 4).blk t).view.emb y) = _
  refine congrArg _ (funext fun a => Fin.ext ?_)
  obtain ⟨-, -, -, -, -, -, -, -, e0, e1, -⟩ := idx_facts t
  match a with
  | ⟨0, _⟩ => show win0_4.index t (0 : Fin 2) * 128 + 1 * (y 0).val = (y 0).val; omega
  | ⟨1, _⟩ => show win0_4.index t (1 : Fin 2) * 128 + 1 * (y 1).val = (y 1).val; omega

/-- Entry (p, k) of the output's block at point t is entry (5000·t + p, k) of the output. -/
theorem emb_out (t : Fin cfg0.N) (p : Fin 5000) (k : Fin 128) :
    ((cfg0.win 5).blk t).view.emb (ix2 p k)
      = (ix2 ⟨5000 * t.val + p.val, by have := t_lt t; have := p.isLt; omega⟩ k : S100000x128.Idx) := by
  refine funext fun a => Fin.ext ?_
  obtain ⟨-, -, -, -, -, -, -, -, -, -, e0, e1⟩ := idx_facts t
  match a with
  | ⟨0, _⟩ => show win0_5.index t (0 : Fin 2) * 5000 + 1 * p.val = 5000 * t.val + p.val; omega
  | ⟨1, _⟩ => show win0_5.index t (1 : Fin 2) * 128 + 1 * k.val = k.val; omega

/-- The round of the arrays as the region finds them. -/
abbrev roundOf (c : Dev nD) : S100000x128.Idx → EReal :=
  hidden (V c main_arg0 : S100000x128.Idx → EReal) (V c main_v22 : S100000x128.Idx → EReal)
    (V c main_arg2 : S128x128.Idx → EReal) (V c main_arg4 : S128x128.Idx → EReal)
    (rowAsVec (V c main_v23 : S1x128.Idx → EReal))

/-- What point t writes back is rows 5000·t … 5000·t + 4999 of the round of the whole arrays. -/
theorem flushed_eq (c : Dev nD) (t : Fin cfg0.N) :
    (dat0 V c).flushed 5 t = ((cfg0.win 5).blk t).view.read (Elt Ideal) (roundOf V c) := by
  show (cfg0.win 5).cut (grid0.coords t) ((dat0 V c).after 5 t) = _
  rw [after0_5]
  unfold out0_5
  rw [View.canon_unit_zero hz]
  simp only [View.ld_unit_zero (S := S5000x128) hz, View.ld_unit_zero (S := S128x128) hz, View.ld_unit_zero (S := S1x128) hz]
  funext j
  obtain ⟨p, q, rfl⟩ : ∃ (p : Fin 5000) (q : Fin 128), j = ix2 p q := ⟨j 0, j 1, eq_ix2 j⟩
  show k0_pay1 (iblk0 V c 0 t) (iblk0 V c 1 t) (iblk0 V c 2 t) (iblk0 V c 4 t) (iblk0 V c 3 t) (ix2 p q)
    = roundOf V c (((cfg0.win 5).blk t).view.emb (ix2 p q))
  rw [emb_out t p q, blk_wl V c t, blk_wr V c t, blk_b V c t]
  refine (pay_apply (iblk0 V c 0 t) (iblk0 V c 1 t) _ _ _ p q).trans ?_
  show hiddenAt (iblk0 V c 0 t) (iblk0 V c 1 t) (V c main_arg2 : S128x128.Idx → EReal) (V c main_arg4 : S128x128.Idx → EReal)
      (rowAsVec (V c main_v23 : S1x128.Idx → EReal)) p q = _
  exact hiddenAt_rows _ _ _ _ _ _ _ (5000 * t.val) (by have := t_lt t; omega) (blk_x V c t) (blk_a V c t) p q

/-- An index of the output is in point t's block iff each coordinate is in the block's range on its axis. -/
theorem mem_blk (t : Fin cfg0.N) (i : S100000x128.Idx) :
    i ∈ ((cfg0.win 5).blk t).view.set ↔ ∀ a : Fin 2, win0_5.index t a * S5000x128.size a ≤ (i a).val ∧ (i a).val < win0_5.index t a * S5000x128.size a + S5000x128.size a := by
  show i ∈ ((View.whole main_v24).slice (win0_5.rect t)).set ↔ _
  rw [View.set_slice_whole, Rect.mem_set_unit]
  exact Iff.rfl

/-- Every index of the output is in some point's block: row r is in block r / 5000. -/
theorem covered (i : S100000x128.Idx) :
    ∃ t : Fin cfg0.N, (cfg0.win 5).flush t = true ∧ i ∈ ((cfg0.win 5).blk t).view.set := by
  have hi0 : (i 0).val < 100000 := (i 0).isLt
  have hi1 : (i 1).val < 128 := (i 1).isLt
  let t : Fin cfg0.N := ⟨(i 0).val / 5000, by rw [show cfg0.N = 20 from N_0]; omega⟩
  obtain ⟨-, -, -, -, -, -, -, -, -, -, e0, e1⟩ := idx_facts t
  have ht : t.val = (i 0).val / 5000 := rfl
  refine ⟨t, flush0_5 t, ?_⟩
  rw [mem_blk]
  intro a
  match a with
  | ⟨0, _⟩ => show win0_5.index t (0 : Fin 2) * 5000 ≤ (i 0).val ∧ (i 0).val < win0_5.index t (0 : Fin 2) * 5000 + 5000; omega
  | ⟨1, _⟩ => show win0_5.index t (1 : Fin 2) * 128 ≤ (i 1).val ∧ (i 1).val < win0_5.index t (1 : Fin 2) * 128 + 128; omega

/-- The output array after the region is the round of the arrays the region found. -/
theorem final (c : Dev nD) : (dat0 V c).arrAt 5 cfg0.N = roundOf V c :=
  (dat0 V c).arrAt_eq_of_cover 5 (roundOf V c) (fun t _ => flushed_eq V c t) covered

end

end Cert.KernelIdeal.Round1

end
-- ==== Proof.Round2.lean ====
/-
  The second round and the read-out on the matrix unit, read back as one array.

  The second kernel again walks the 100000 nodes in 20 blocks of 5000 rows. At block t it loads rows 5000·t … of the
  first round's features h and of their neighbourhood means a, the second round's two weight matrices and bias row, and
  the read-out's 128×2 matrix and bias pair, forms the round's block max(a_blk·Wl + h_blk·Wr + b, 0) without storing it,
  and stores that block times Wfc plus bfc into rows 5000·t … of the 100000×2 output. Entry (p, q) of the stored block
  is the read-out of the round of the loaded blocks (`pay_apply`); a row of the read-out depends on that row of h and a
  alone, so the block is rows 5000·t … of the read-out of the whole arrays (`flushed_eq`); the 20 blocks tile the output
  (`covered`), hence the array after the region is that read-out (`final`).
-/
import proofs.«149914_j55783035240725_1_alg».proof.Proof.Gen.KernelIdeal.Frame
import proofs.«149914_j55783035240725_1_alg».proof.Proof.SageSpec
import proofs.«149914_j55783035240725_1_alg».proof.Proof.Round1
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Round2

open Cert.KernelIdeal Cert.KernelIdeal.Gen Idealize.ShloMosaic Idealize.ShloMosaic.TcCoe Idealize.ShloMosaic.ValueIdx
open Idealize.SL.Sem Sage SideBySide
open Idealize.ShloMosaic.Pipeline (Dat Cfg Window)
open Cert.KernelIdeal.Round1 (dot_plain rowAsVec hz)

/-- The read-out's dimension numbers are those of a plain rows-by-columns product. -/
theorem dot_out_plain : dot_S5000x128_S128x2_S5000x2_1_0_0_1_n_n = DotDims.plain 5000 128 2 := rfl

/-- A 1×2 row read as a vector of 2 entries. -/
def pairAsVec (r : (⟨2, ![1, 2]⟩ : Shape).Idx → EReal) : (⟨1, ![2]⟩ : Shape).Idx → EReal :=
  fun i => r (ix2 (0 : Fin 1) (i 0))

/-- Entry (p, q) of what the body stores, from the blocks it loads: v0 the features, v3 their means, v6 and v8 the round's
    weight matrices, v13 its bias row, v20 the read-out matrix, v23 the read-out's bias pair. -/
theorem pay_apply (v0 v3 : Vec Ideal S5000x128 .f32) (v6 v8 : Vec Ideal S128x128 .f32) (v13 : Vec Ideal S1x128 .f32)
    (v20 : Vec Ideal S128x2 .f32) (v23 : Vec Ideal S1x2 .f32) (p : Fin 5000) (q : Fin 2) :
    k1_pay1 (F := Ideal) v0 v3 v6 v8 v13 v20 v23 (ix2 p q)
      = scoreAt v0 v3 v6 v8 (rowAsVec v13) v20 (pairAsVec v23) p q := by
  unfold k1_pay1
  rw [addf_apply, broadcastTo_1b_ab_apply, shapeCast_self, shapeCast_self, shapeCast_self, shapeCast_self]
  rw [kernelProduct_apply _ dot_out_plain]
  unfold scoreAt
  refine congrArg₂ (· + ·) ?_ rfl
  unfold entry
  refine Finset.sum_congr rfl fun k _ => ?_
  refine congrArg₂ (· * ·) ?_ rfl
  rw [truncf_apply, hidden_apply]
  unfold hiddenAt
  rw [maximumf_apply, addf_apply, addf_apply, broadcast_apply, broadcastTo_1b_ab_apply]
  rw [kernelProduct_apply _ dot_plain, kernelProduct_apply _ dot_plain]
  rw [Ideal.ofBits_def, Ideal.ofBits_zero_f32]
  rfl

/-- The printed index maps over the grid: the row windows sit at block (t, 0), everything else at block (0, 0). -/
theorem idx_facts : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = 0 ∧ win1_5.index t (1 : Fin 2) = 0
    ∧ win1_6.index t (0 : Fin 2) = 0 ∧ win1_6.index t (1 : Fin 2) = 0
    ∧ win1_7.index t (0 : Fin 2) = t.val ∧ win1_7.index t (1 : Fin 2) = 0 :=
  (by decide +kernel : ∀ t : Fin grid1.N, _)

theorem t_lt (t : Fin cfg1.N) : t.val < 20 := N_1 ▸ t.isLt

section
variable (V : (c : Dev nD) → (b : Ref sig .tc) → Buf (Elt Ideal) ((c : Thread nD τ).loc b))

/-- The features' block at point t is rows 5000·t … of the features. -/
theorem blk_h (c : Dev nD) (t : Fin cfg1.N) (p : Fin 5000) (k : Fin 128) :
    iblk1 V c 0 t (ix2 p k)
      = (V c main_v24 : S100000x128.Idx → EReal) (ix2 ⟨5000 * t.val + p.val, by have := t_lt t; have := p.isLt; omega⟩ k) := by
  show V c main_v24 (((cfg1.win 0).blk t).view.emb (ix2 p k)) = _
  refine congrArg _ (funext fun a => Fin.ext ?_)
  obtain ⟨e0, e1, -⟩ := idx_facts t
  match a with
  | ⟨0, _⟩ => show win1_0.index t (0 : Fin 2) * 5000 + 1 * p.val = 5000 * t.val + p.val; omega
  | ⟨1, _⟩ => show win1_0.index t (1 : Fin 2) * 128 + 1 * k.val = k.val; omega

/-- The means' block at point t is rows 5000·t … of the means. -/
theorem blk_a (c : Dev nD) (t : Fin cfg1.N) (p : Fin 5000) (k : Fin 128) :
    iblk1 V c 1 t (ix2 p k)
      = (V c main_v43 : S100000x128.Idx → EReal) (ix2 ⟨5000 * t.val + p.val, by have := t_lt t; have := p.isLt; omega⟩ k) := by
  show V c main_v43 (((cfg1.win 1).blk t).view.emb (ix2 p k)) = _
  refine congrArg _ (funext fun a => Fin.ext ?_)
  obtain ⟨-, -, e0, e1, -⟩ := idx_facts t
  match a with
  | ⟨0, _⟩ => show win1_1.index t (0 : Fin 2) * 5000 + 1 * p.val = 5000 * t.val + p.val; omega
  | ⟨1, _⟩ => show win1_1.index t (1 : Fin 2) * 128 + 1 * k.val = k.val; omega

/-- The first weight matrix's block is the matrix. -/
theorem blk_wl (c : Dev nD) (t : Fin cfg1.N) : iblk1 V c 2 t = (V c main_arg5 : S128x128.Idx → EReal) := by
  funext y
  show V c main_arg5 (((cfg1.win 2).blk t).view.emb y) = _
  refine congrArg _ (funext fun a => Fin.ext ?_)
  obtain ⟨-, -, -, -, e0, e1, -⟩ := idx_facts t
  match a with
  | ⟨0, _⟩ => show win1_2.index t (0 : Fin 2) * 128 + 1 * (y 0).val = (y 0).val; omega
  | ⟨1, _⟩ => show win1_2.index t (1 : Fin 2) * 128 + 1 * (y 1).val = (y 1).val; omega

/-- The bias row's block is the row. -/
theorem blk_b (c : Dev nD) (t : Fin cfg1.N) : iblk1 V c 3 t = (V c main_v44 : S1x128.Idx → EReal) := by
  funext y
  show V c main_v44 (((cfg1.win 3).blk t).view.emb y) = _
  refine congrArg _ (funext fun a => Fin.ext ?_)
  obtain ⟨-, -, -, -, -, -, e0, e1, -⟩ := idx_facts t
  match a with
  | ⟨0, _⟩ => show win1_3.index t (0 : Fin 2) * 1 + 1 * (y 0).val = (y 0).val; omega
  | ⟨1, _⟩ => show win1_3.index t (1 : Fin 2) * 128 + 1 * (y 1).val = (y 1).val; omega

/-- The second weight matrix's block is the matrix. -/
theorem blk_wr (c : Dev nD) (t : Fin cfg1.N) : iblk1 V c 4 t = (V c main_arg7 : S128x128.Idx → EReal) := by
  funext y
  show V c main_arg7 (((cfg1.win 4).blk t).view.emb y) = _
  refine congrArg _ (funext fun a => Fin.ext ?_)
  obtain ⟨-, -, -, -, -, -, -, -, e0, e1, -⟩ := idx_facts t
  match a with
  | ⟨0, _⟩ => show win1_4.index t (0 : Fin 2) * 128 + 1 * (y 0).val = (y 0).val; omega
  | ⟨1, _⟩ => show win1_4.index t (1 : Fin 2) * 128 + 1 * (y 1).val = (y 1).val; omega

/-- The read-out matrix's block is the matrix. -/
theorem blk_wfc (c : Dev nD) (t : Fin cfg1.N) : iblk1 V c 5 t = (V c main_arg8 : S128x2.Idx → EReal) := by
  funext y
  show V c main_arg8 (((cfg1.win 5).blk t).view.emb y) = _
  refine congrArg _ (funext fun a => Fin.ext ?_)
  obtain ⟨-, -, -, -, -, -, -, -, -, -, e0, e1, -⟩ := idx_facts t
  match a with
  | ⟨0, _⟩ => show win1_5.index t (0 : Fin 2) * 128 + 1 * (y 0).val = (y 0).val; omega
  | ⟨1, _⟩ => show win1_5.index t (1 : Fin 2) * 2 + 1 * (y 1).val = (y 1).val; omega

/-- The read-out's bias pair's block is the pair. -/
theorem blk_bfc (c : Dev nD) (t : Fin cfg1.N) : iblk1 V c 6 t = (V c main_v45 : S1x2.Idx → EReal) := by
  funext y
  show V c main_v45 (((cfg1.win 6).blk t).view.emb y) = _
  refine congrArg _ (funext fun a => Fin.ext ?_)
  obtain ⟨-, -, -, -, -, -, -, -, -, -, -, -, e0, e1, -⟩ := idx_facts t
  match a with
  | ⟨0, _⟩ => show win1_6.index t (0 : Fin 2) * 1 + 1 * (y 0).val = (y 0).val; omega
  | ⟨1, _⟩ => show win1_6.index t (1 : Fin 2) * 2 + 1 * (y 1).val = (y 1).val; omega

/-- Entry (p, k) of the output's block at point t is entry (5000·t + p, k) of the output. -/
theorem emb_out (t : Fin cfg1.N) (p : Fin 5000) (k : Fin 2) :
    ((cfg1.win 7).blk t).view.emb (ix2 p k)
      = (ix2 ⟨5000 * t.val + p.val, by have := t_lt t; have := p.isLt; omega⟩ k : S100000x2.Idx) := by
  refine funext fun a => Fin.ext ?_
  obtain ⟨-, -, -, -, -, -, -, -, -, -, -, -, -, -, e0, e1⟩ := idx_facts t
  match a with
  | ⟨0, _⟩ => show win1_7.index t (0 : Fin 2) * 5000 + 1 * p.val = 5000 * t.val + p.val; omega
  | ⟨1, _⟩ => show win1_7.index t (1 : Fin 2) * 2 + 1 * k.val = k.val; omega

/-- The read-out of the round of the arrays as the region finds them. -/
abbrev scoreOf (c : Dev nD) : S100000x2.Idx → EReal :=
  score (V c main_v24 : S100000x128.Idx → EReal) (V c main_v43 : S100000x128.Idx → EReal)
    (V c main_arg5 : S128x128.Idx → EReal) (V c main_arg7 : S128x128.Idx → EReal)
    (rowAsVec (V c main_v44 : S1x128.Idx → EReal)) (V c main_arg8 : S128x2.Idx → EReal)
    (pairAsVec (V c main_v45 : S1x2.Idx → EReal))

/-- What point t writes back is rows 5000·t … 5000·t + 4999 of the read-out of the whole arrays. -/
theorem flushed_eq (c : Dev nD) (t : Fin cfg1.N) :
    (dat1 V c).flushed 7 t = ((cfg1.win 7).blk t).view.read (Elt Ideal) (scoreOf V c) := by
  show (cfg1.win 7).cut (grid1.coords t) ((dat1 V c).after 7 t) = _
  rw [after1_7]
  unfold out1_7
  rw [View.canon_unit_zero hz]
  simp only [View.ld_unit_zero (S := S5000x128) hz, View.ld_unit_zero (S := S128x128) hz, View.ld_unit_zero (S := S1x128) hz,
    View.ld_unit_zero (S := S128x2) hz, View.ld_unit_zero (S := S1x2) hz]
  funext j
  obtain ⟨p, q, rfl⟩ : ∃ (p : Fin 5000) (q : Fin 2), j = ix2 p q := ⟨j 0, j 1, eq_ix2 j⟩
  show k1_pay1 (iblk1 V c 0 t) (iblk1 V c 1 t) (iblk1 V c 2 t) (iblk1 V c 4 t) (iblk1 V c 3 t) (iblk1 V c 5 t) (iblk1 V c 6 t) (ix2 p q)
    = scoreOf V c (((cfg1.win 7).blk t).view.emb (ix2 p q))
  rw [emb_out t p q, blk_wl V c t, blk_wr V c t, blk_b V c t, blk_wfc V c t, blk_bfc V c t]
  refine (pay_apply (iblk1 V c 0 t) (iblk1 V c 1 t) _ _ _ _ _ p q).trans ?_
  show scoreAt (iblk1 V c 0 t) (iblk1 V c 1 t) (V c main_arg5 : S128x128.Idx → EReal) (V c main_arg7 : S128x128.Idx → EReal)
      (rowAsVec (V c main_v44 : S1x128.Idx → EReal)) (V c main_arg8 : S128x2.Idx → EReal)
      (pairAsVec (V c main_v45 : S1x2.Idx → EReal)) p q = _
  exact scoreAt_rows _ _ _ _ _ _ _ _ _ (5000 * t.val) (by have := t_lt t; omega) (blk_h V c t) (blk_a V c t) p q

/-- An index of the output is in point t's block iff each coordinate is in the block's range on its axis. -/
theorem mem_blk (t : Fin cfg1.N) (i : S100000x2.Idx) :
    i ∈ ((cfg1.win 7).blk t).view.set ↔ ∀ a : Fin 2, win1_7.index t a * S5000x2.size a ≤ (i a).val ∧ (i a).val < win1_7.index t a * S5000x2.size a + S5000x2.size a := by
  show i ∈ ((View.whole main_v46).slice (win1_7.rect t)).set ↔ _
  rw [View.set_slice_whole, Rect.mem_set_unit]
  exact Iff.rfl

/-- Every index of the output is in some point's block: row r is in block r / 5000. -/
theorem covered (i : S100000x2.Idx) :
    ∃ t : Fin cfg1.N, (cfg1.win 7).flush t = true ∧ i ∈ ((cfg1.win 7).blk t).view.set := by
  have hi0 : (i 0).val < 100000 := (i 0).isLt
  have hi1 : (i 1).val < 2 := (i 1).isLt
  let t : Fin cfg1.N := ⟨(i 0).val / 5000, by rw [show cfg1.N = 20 from N_1]; omega⟩
  obtain ⟨-, -, -, -, -, -, -, -, -, -, -, -, -, -, e0, e1⟩ := idx_facts t
  have ht : t.val = (i 0).val / 5000 := rfl
  refine ⟨t, flush1_7 t, ?_⟩
  rw [mem_blk]
  intro a
  match a with
  | ⟨0, _⟩ => show win1_7.index t (0 : Fin 2) * 5000 ≤ (i 0).val ∧ (i 0).val < win1_7.index t (0 : Fin 2) * 5000 + 5000; omega
  | ⟨1, _⟩ => show win1_7.index t (1 : Fin 2) * 2 ≤ (i 1).val ∧ (i 1).val < win1_7.index t (1 : Fin 2) * 2 + 2; omega

/-- The output array after the region is the read-out of the round of the arrays the region found. -/
theorem final (c : Dev nD) : (dat1 V c).arrAt 7 cfg1.N = scoreOf V c :=
  (dat1 V c).arrAt_eq_of_cover 7 (scoreOf V c) (fun t _ => flushed_eq V c t) covered

end

end Cert.KernelIdeal.Round2

end
-- ==== Proof.KHost.lean ====
/-
  What the host operations of the kernel's program leave in the buffers the two kernel calls read.

  Before the first call the host splits the edge list into its source row s and its target row d, gathers the rows
  x[s] of the features (an index below zero first has 100000 added, as numpy indexing does), adds row e of the gathered
  array into row d[e] of a zero array, counts the edges into each node the same way, and divides each node's sum by
  its count or by one, whichever is larger: the neighbourhood mean, `meanOf s d x`. Between the calls it does the same
  to the first call's output. The mean is kept as ONE function of s, d and the features and is never opened here: the
  reference computes it by the same operations, so all that is needed is that both programs apply this function.

  The other buffers a call reads are arguments nobody wrote (`W1_of_arg`-style facts), or a bias reshaped to one row.
-/
import proofs.«149914_j55783035240725_1_alg».proof.Proof.Gen.KernelIdeal.Frame
import Idealize.ShloMosaic.Lib.StableHlo.Run

set_option maxRecDepth 16384

noncomputable section

namespace Cert.KernelIdeal.HostSide

open Cert.KernelIdeal Cert.KernelIdeal.Gen Idealize.ShloMosaic Idealize.ShloMosaic.TcCoe Idealize.SL.Sem
open Idealize.ShloMosaic.StableHlo
open Idealize.ShloMosaic.Pipeline (Dat Cfg Window)

variable {F : FTy → Type} [FloatOps F]

/-- The edges' sources: row 0 of the edge list. -/
def srcOf (ei : (⟨S2x1600000, .i32⟩ : BufTy).Contents (Elt F)) : (⟨S1600000, .i32⟩ : BufTy).Contents (Elt F) :=
  shapeCast _ (extractStridedSlice S1x1600000 ![0, 0] ei slices_S2x1600000_S1x1600000_0_0) shapeCasts_S1x1600000_S1600000

/-- The edges' targets: row 1 of the edge list. -/
def dstOf (ei : (⟨S2x1600000, .i32⟩ : BufTy).Contents (Elt F)) : (⟨S1600000, .i32⟩ : BufTy).Contents (Elt F) :=
  shapeCast _ (extractStridedSlice S1x1600000 ![1, 0] ei slices_S2x1600000_S1x1600000_1_0) shapeCasts_S1x1600000_S1600000

/-- The neighbourhood mean of the features: for each node the sum of the features of its incoming edges' sources, over
    the number of those edges or one. -/
def meanOf (s d : (⟨S1600000, .i32⟩ : BufTy).Contents (Elt F)) (feat : (⟨S100000x128, .f32⟩ : BufTy).Contents (Elt F)) :
    (⟨S100000x128, .f32⟩ : BufTy).Contents (Elt F) :=
  Host.divf
    (Host.scatterAdd scatter_S100000x128_S1600000x1_S1600000x128_1_0_0_1
      (broadcastInDim S100000x128 ![] bcast_S_S100000x128 (constant S_ .f32 0x00000000#32))
      (broadcastInDim S1600000x1 ![0] bcast_S1600000_S1600000x1_0 d)
      (Host.gather gather_S100000x128_S1600000x1_S1600000x128_1_0_n_n_0_1_1128 feat
        (broadcastInDim S1600000x1 ![0] bcast_S1600000_S1600000x1_0
          (select (cmpi .slt s (broadcastInDim S1600000 ![] bcast_S_S1600000 (constantI S_ 32 0#32)))
            (addi s (broadcastInDim S1600000 ![] bcast_S_S1600000 (constantI S_ 32 100000#32))) s))))
    (broadcastInDim S100000x128 ![0, 1] bcast_S100000x1_S100000x128_0_1
      (broadcastInDim S100000x1 ![0] bcast_S100000_S100000x1_0
        (maximumf
          (Host.scatterAdd scatter_S100000_S1600000x1_S1600000_n_0_0_1
            (broadcastInDim S100000 ![] bcast_S_S100000 (constant S_ .f32 0x00000000#32))
            (broadcastInDim S1600000x1 ![0] bcast_S1600000_S1600000x1_0 d)
            (broadcastInDim S1600000 ![] bcast_S_S1600000 (constant S_ .f32 0x3F800000#32)))
          (broadcastInDim S100000 ![] bcast_S_S100000 (constant S_ .f32 0x3F800000#32)))))

variable (m : (ℓ : Loc nD τ sig) → Buf (Elt F) ℓ) (ρ : Dev nD → PrngReg)

/-! ## Before the first call -/

theorem W1_arg0 (c : Dev nD) : W1 m ρ c (Proc.devRef .tc main_arg0) = m ((c : Thread nD τ).loc main_arg0) := by
  show after hostOps0 (W0 m ρ c) (Proc.devRef .tc main_arg0) = _
  after_results_simp <;> rfl

theorem W1_v22 (c : Dev nD) : W1 m ρ c (Proc.devRef .tc main_v22)
    = meanOf (srcOf (m ((c : Thread nD τ).loc main_arg1))) (dstOf (m ((c : Thread nD τ).loc main_arg1))) (m ((c : Thread nD τ).loc main_arg0)) := by
  show after hostOps0 (W0 m ρ c) (Proc.devRef .tc main_v22) = _
  after_results_simp
  rfl

theorem W1_arg2 (c : Dev nD) : W1 m ρ c (Proc.devRef .tc main_arg2) = m ((c : Thread nD τ).loc main_arg2) := by
  show after hostOps0 (W0 m ρ c) (Proc.devRef .tc main_arg2) = _
  after_results_simp <;> rfl

theorem W1_arg4 (c : Dev nD) : W1 m ρ c (Proc.devRef .tc main_arg4) = m ((c : Thread nD τ).loc main_arg4) := by
  show after hostOps0 (W0 m ρ c) (Proc.devRef .tc main_arg4) = _
  after_results_simp <;> rfl

theorem W1_arg5 (c : Dev nD) : W1 m ρ c (Proc.devRef .tc main_arg5) = m ((c : Thread nD τ).loc main_arg5) := by
  show after hostOps0 (W0 m ρ c) (Proc.devRef .tc main_arg5) = _
  after_results_simp <;> rfl

theorem W1_arg6 (c : Dev nD) : W1 m ρ c (Proc.devRef .tc main_arg6) = m ((c : Thread nD τ).loc main_arg6) := by
  show after hostOps0 (W0 m ρ c) (Proc.devRef .tc main_arg6) = _
  after_results_simp <;> rfl

theorem W1_arg7 (c : Dev nD) : W1 m ρ c (Proc.devRef .tc main_arg7) = m ((c : Thread nD τ).loc main_arg7) := by
  show after hostOps0 (W0 m ρ c) (Proc.devRef .tc main_arg7) = _
  after_results_simp <;> rfl

theorem W1_arg8 (c : Dev nD) : W1 m ρ c (Proc.devRef .tc main_arg8) = m ((c : Thread nD τ).loc main_arg8) := by
  show after hostOps0 (W0 m ρ c) (Proc.devRef .tc main_arg8) = _
  after_results_simp <;> rfl

theorem W1_arg9 (c : Dev nD) : W1 m ρ c (Proc.devRef .tc main_arg9) = m ((c : Thread nD τ).loc main_arg9) := by
  show after hostOps0 (W0 m ρ c) (Proc.devRef .tc main_arg9) = _
  after_results_simp <;> rfl

theorem W1_v1 (c : Dev nD) : W1 m ρ c (Proc.devRef .tc main_v1) = srcOf (m ((c : Thread nD τ).loc main_arg1)) := by
  show after hostOps0 (W0 m ρ c) (Proc.devRef .tc main_v1) = _
  after_results_simp
  rfl

theorem W1_v3 (c : Dev nD) : W1 m ρ c (Proc.devRef .tc main_v3) = dstOf (m ((c : Thread nD τ).loc main_arg1)) := by
  show after hostOps0 (W0 m ρ c) (Proc.devRef .tc main_v3) = _
  after_results_simp
  rfl

/-- The first bias, reshaped to one row. -/
theorem W1_v23 (c : Dev nD) : W1 m ρ c (Proc.devRef .tc main_v23)
    = shapeCast S1x128 (m ((c : Thread nD τ).loc main_arg3)) shapeCasts_S128_S1x128 := by
  show after hostOps0 (W0 m ρ c) (Proc.devRef .tc main_v23) = _
  after_results_simp
  rfl

/-! ## Across the first call: a buffer that is none of its arrays keeps its contents -/

theorem W2_v1 (c : Dev nD) : W2 m ρ c (Proc.devRef .tc main_v1) = srcOf (m ((c : Thread nD τ).loc main_arg1)) :=
  (W2_of_ne m ρ c main_v1 (by decide)).trans (W1_v1 m ρ c)
theorem W2_v3 (c : Dev nD) : W2 m ρ c (Proc.devRef .tc main_v3) = dstOf (m ((c : Thread nD τ).loc main_arg1)) :=
  (W2_of_ne m ρ c main_v3 (by decide)).trans (W1_v3 m ρ c)
theorem W2_arg5 (c : Dev nD) : W2 m ρ c (Proc.devRef .tc main_arg5) = m ((c : Thread nD τ).loc main_arg5) :=
  (W2_of_ne m ρ c main_arg5 (by decide)).trans (W1_arg5 m ρ c)
theorem W2_arg6 (c : Dev nD) : W2 m ρ c (Proc.devRef .tc main_arg6) = m ((c : Thread nD τ).loc main_arg6) :=
  (W2_of_ne m ρ c main_arg6 (by decide)).trans (W1_arg6 m ρ c)
theorem W2_arg7 (c : Dev nD) : W2 m ρ c (Proc.devRef .tc main_arg7) = m ((c : Thread nD τ).loc main_arg7) :=
  (W2_of_ne m ρ c main_arg7 (by decide)).trans (W1_arg7 m ρ c)
theorem W2_arg8 (c : Dev nD) : W2 m ρ c (Proc.devRef .tc main_arg8) = m ((c : Thread nD τ).loc main_arg8) :=
  (W2_of_ne m ρ c main_arg8 (by decide)).trans (W1_arg8 m ρ c)
theorem W2_arg9 (c : Dev nD) : W2 m ρ c (Proc.devRef .tc main_arg9) = m ((c : Thread nD τ).loc main_arg9) :=
  (W2_of_ne m ρ c main_arg9 (by decide)).trans (W1_arg9 m ρ c)
/-- The first call's output array after the call. -/
theorem W2_v24 (c : Dev nD) : W2 m ρ c (Proc.devRef .tc main_v24) = (dat0 (V1 m ρ) c).arrAt 5 cfg0.N := W2_arr m ρ c 5

/-! ## Before the second call -/

theorem W3_v24 (c : Dev nD) : W3 m ρ c (Proc.devRef .tc main_v24) = (dat0 (V1 m ρ) c).arrAt 5 cfg0.N := by
  show after hostOps1 (W2 m ρ c) (Proc.devRef .tc main_v24) = _
  after_results_simp
  exact W2_v24 m ρ c

theorem W3_v43 (c : Dev nD) : W3 m ρ c (Proc.devRef .tc main_v43)
    = meanOf (srcOf (m ((c : Thread nD τ).loc main_arg1))) (dstOf (m ((c : Thread nD τ).loc main_arg1))) ((dat0 (V1 m ρ) c).arrAt 5 cfg0.N) := by
  show after hostOps1 (W2 m ρ c) (Proc.devRef .tc main_v43) = _
  after_results_simp
  rw [W2_v1, W2_v3, W2_v24]
  rfl

theorem W3_arg5 (c : Dev nD) : W3 m ρ c (Proc.devRef .tc main_arg5) = m ((c : Thread nD τ).loc main_arg5) := by
  show after hostOps1 (W2 m ρ c) (Proc.devRef .tc main_arg5) = _
  after_results_simp
  exact W2_arg5 m ρ c
theorem W3_arg7 (c : Dev nD) : W3 m ρ c (Proc.devRef .tc main_arg7) = m ((c : Thread nD τ).loc main_arg7) := by
  show after hostOps1 (W2 m ρ c) (Proc.devRef .tc main_arg7) = _
  after_results_simp
  exact W2_arg7 m ρ c
theorem W3_arg8 (c : Dev nD) : W3 m ρ c (Proc.devRef .tc main_arg8) = m ((c : Thread nD τ).loc main_arg8) := by
  show after hostOps1 (W2 m ρ c) (Proc.devRef .tc main_arg8) = _
  after_results_simp
  exact W2_arg8 m ρ c

/-- The second bias, reshaped to one row. -/
theorem W3_v44 (c : Dev nD) : W3 m ρ c (Proc.devRef .tc main_v44)
    = shapeCast S1x128 (m ((c : Thread nD τ).loc main_arg6)) shapeCasts_S128_S1x128 := by
  show after hostOps1 (W2 m ρ c) (Proc.devRef .tc main_v44) = _
  after_results_simp
  rw [W2_arg6]
  rfl

/-- The read-out's bias, reshaped to one row. -/
theorem W3_v45 (c : Dev nD) : W3 m ρ c (Proc.devRef .tc main_v45)
    = shapeCast S1x2 (m ((c : Thread nD τ).loc main_arg9)) shapeCasts_S2_S1x2 := by
  show after hostOps1 (W2 m ρ c) (Proc.devRef .tc main_v45) = _
  after_results_simp
  rw [W2_arg9]
  rfl

end Cert.KernelIdeal.HostSide

end
-- ==== Proof.KValue.lean ====
/-
  The kernel's program as a whole: its result array after the run is the network of the specification.

  The frame of the program names the buffer contents at each boundary: `W1` after the first stretch of host operations,
  `W2` after the first kernel call, `W3` after the second stretch, `W4` after the second call. The result buffer at `W4`
  is the second call's output array, which is the read-out of the round of what the call found (Round2); what it found
  is the first call's output, its neighbourhood mean, and the second round's arguments (KHost); the first call's output is
  the round of the features, their mean and the first round's arguments (Round1, KHost). A bias reshaped to one row and
  read back as a vector is the bias (`rowAsVec_reshape`, `pairAsVec_reshape`).
-/
import proofs.«149914_j55783035240725_1_alg».proof.Proof.Gen.KernelIdeal.Frame
import proofs.«149914_j55783035240725_1_alg».proof.Proof.SageSpec
import proofs.«149914_j55783035240725_1_alg».proof.Proof.Round1
import proofs.«149914_j55783035240725_1_alg».proof.Proof.Round2
import proofs.«149914_j55783035240725_1_alg».proof.Proof.KHost
import Idealize.ShloMosaic.Lib.ValueIdx
import Idealize.ShloMosaic.Lib.ValueLayout

set_option maxRecDepth 16384

noncomputable section

namespace Cert.KernelIdeal.KValue

open Cert.KernelIdeal Cert.KernelIdeal.Gen Idealize.ShloMosaic Idealize.ShloMosaic.TcCoe Idealize.ShloMosaic.ValueIdx
open Idealize.SL.Sem Sage
open Idealize.ShloMosaic.Pipeline (Dat Cfg Window)
open Cert.KernelIdeal.Round1 (rowAsVec roundOf)
open Cert.KernelIdeal.Round2 (pairAsVec scoreOf)
open Cert.KernelIdeal.HostSide

/-- A vector of 128 entries reshaped to one row and read back as a vector is the vector. -/
theorem rowAsVec_reshape (b : (⟨1, ![128]⟩ : Shape).Idx → EReal) (h : (⟨1, ![128]⟩ : Shape).ShapeCasts ⟨2, ![1, 128]⟩) :
    rowAsVec (shapeCast ⟨2, ![1, 128]⟩ b h) = b := by
  funext i
  obtain ⟨q, rfl⟩ : ∃ q : Fin 128, i = ix1 q := ⟨i 0, eq_ix1 i⟩
  exact shapeCast_a_1a_apply b h 0 q

/-- A vector of 2 entries reshaped to one row and read back as a vector is the vector. -/
theorem pairAsVec_reshape (b : (⟨1, ![2]⟩ : Shape).Idx → EReal) (h : (⟨1, ![2]⟩ : Shape).ShapeCasts ⟨2, ![1, 2]⟩) :
    pairAsVec (shapeCast ⟨2, ![1, 2]⟩ b h) = b := by
  funext i
  obtain ⟨q, rfl⟩ : ∃ q : Fin 2, i = ix1 q := ⟨i 0, eq_ix1 i⟩
  exact shapeCast_a_1a_apply b h 0 q

variable (m : (ℓ : Loc nD τ sig) → Buf (Elt Ideal) ℓ) (ρ : Dev nD → PrngReg)

/-- The neighbourhood mean over the launch's edge list. -/
abbrev meanK (c : Dev nD) (f : S100000x128.Idx → EReal) : S100000x128.Idx → EReal :=
  meanOf (F := Ideal) (srcOf (m ((c : Thread nD τ).loc main_arg1))) (dstOf (m ((c : Thread nD τ).loc main_arg1))) f

/-- The first call's output: the first round. -/
theorem first (c : Dev nD) : (dat0 (V1 m ρ) c).arrAt 5 cfg0.N
    = hidden (m ((c : Thread nD τ).loc main_arg0)) (meanK m c (m ((c : Thread nD τ).loc main_arg0))) (m ((c : Thread nD τ).loc main_arg2)) (m ((c : Thread nD τ).loc main_arg4)) (m ((c : Thread nD τ).loc main_arg3)) := by
  rw [Round1.final (V1 m ρ) c]
  dsimp only [roundOf, V1]
  rw [W1_arg0, W1_v22, W1_arg2, W1_arg4, W1_v23, rowAsVec_reshape]

/-- The result buffer after the run: the network of the specification over the launch's arguments. -/
theorem result (c : Dev nD) : W4 m ρ c (Proc.devRef .tc main_v46)
    = net (meanK m c) (m ((c : Thread nD τ).loc main_arg0)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) := by
  refine (W4_arr m ρ c 7).trans ?_
  rw [Round2.final (V3 m ρ) c]
  dsimp only [scoreOf, V3]
  rw [W3_v24, W3_v43, W3_arg5, W3_arg7, W3_v44, W3_arg8, W3_v45, first, rowAsVec_reshape, pairAsVec_reshape]
  rfl

end Cert.KernelIdeal.KValue

end
-- ==== Proof.RefSide.lean ====
/-
  The reference's stages, read as the network of the specification.

  The reference forms each round as (a·Wl + b) + h·Wr, the bias added before the second product, where the kernel adds it
  last; over the extended reals the order of the three summands does not matter (`Sage.hiddenAt_reassoc`). Its matrix
  products are the host's, each entry the plain sum over the contracted coordinate; its rectifier is the maximum with a
  zero array; its biases are vectors broadcast down the rows. The second round's neighbourhood mean is computed by the
  very operations of the first, applied to the first round's output (`mean2_eq`: the two stages unfold to one term).
-/
import proofs.«149914_j55783035240725_1_alg».proof.Proof.Gen.ReferenceIdeal.Run
import proofs.«149914_j55783035240725_1_alg».proof.Proof.Gen.ReferenceIdeal.Read
import proofs.«149914_j55783035240725_1_alg».proof.Proof.SageSpec
import Idealize.ShloMosaic.Lib.ValueIdx
import Idealize.ShloMosaic.PureOps.Ideal.Laws

noncomputable section

namespace Cert.ReferenceIdeal.RefValue

open Cert.ReferenceIdeal Cert.ReferenceIdeal.Read Idealize.ShloMosaic Idealize.ShloMosaic.ValueIdx Sage SideBySide

/-- The host's dimension numbers are those of a plain rows-by-columns product. -/
theorem dot_plain : dot_S100000x128_S128x128_S100000x128_1_0_0_1_n_n = DotDims.plain 100000 128 128 := rfl
theorem dot_out_plain : dot_S100000x128_S128x2_S100000x2_1_0_0_1_n_n = DotDims.plain 100000 128 2 := rfl

/-- A bias vector broadcast to one row and then down the rows reads, at (p, q), its entry q. -/
theorem bias1_idx (p : Fin 100000) (q : Fin 128) : idx_main_v24 (idx_main_v25 (ix2 p q)) = ix1 q :=
  funext fun a => by match a with | ⟨0, _⟩ => rfl
theorem bias2_idx (p : Fin 100000) (q : Fin 128) : idx_main_v50 (idx_main_v51 (ix2 p q)) = ix1 q :=
  funext fun a => by match a with | ⟨0, _⟩ => rfl
theorem bias3_idx (p : Fin 100000) (q : Fin 2) : idx_main_v57 (idx_main_v58 (ix2 p q)) = ix1 q :=
  funext fun a => by match a with | ⟨0, _⟩ => rfl

/-- The first round: the rectified stage is the round of the features and their mean. -/
theorem round1_eq (x0 : (⟨S100000x128, .f32⟩ : BufTy).Contents (Elt Ideal)) (x1 : (⟨S2x1600000, .i32⟩ : BufTy).Contents (Elt Ideal)) (x2 : (⟨S128x128, .f32⟩ : BufTy).Contents (Elt Ideal)) (x3 : (⟨S128, .f32⟩ : BufTy).Contents (Elt Ideal)) (x4 : (⟨S128x128, .f32⟩ : BufTy).Contents (Elt Ideal)) :
    val_main_v29 (F := Ideal) x0 x1 x2 x3 x4 = hidden x0 (val_main_v22 (F := Ideal) x0 x1) x2 x4 x3 := by
  funext j
  obtain ⟨p, q, rfl⟩ : ∃ (p : Fin 100000) (q : Fin 128), j = ix2 p q := ⟨j 0, j 1, eq_ix2 j⟩
  rw [hidden_apply, val_main_v29_apply, val_main_v28_apply, val_main_v26_apply, val_main_call0_v0_apply,
    val_main_call0_cst_apply, val_main_v25_apply, val_main_v24_apply, bias1_idx]
  unfold val_main_v23 val_main_v27
  rw [hostProduct_apply _ dot_plain, hostProduct_apply _ dot_plain]
  rw [Ideal.maximumf_def, Ideal.addf_def, Ideal.addf_def, Ideal.ofBits_def, Ideal.ofBits_zero_f32]
  exact hiddenAt_reassoc x0 (val_main_v22 (F := Ideal) x0 x1) x2 x4 x3 p q

/-- The second round's mean is the first round's, of the first round's output. -/
theorem mean2_eq (x0 : (⟨S100000x128, .f32⟩ : BufTy).Contents (Elt Ideal)) (x1 : (⟨S2x1600000, .i32⟩ : BufTy).Contents (Elt Ideal)) (x2 : (⟨S128x128, .f32⟩ : BufTy).Contents (Elt Ideal)) (x3 : (⟨S128, .f32⟩ : BufTy).Contents (Elt Ideal)) (x4 : (⟨S128x128, .f32⟩ : BufTy).Contents (Elt Ideal)) :
    val_main_v48 (F := Ideal) x0 x1 x2 x3 x4 = val_main_v22 (F := Ideal) (val_main_v29 (F := Ideal) x0 x1 x2 x3 x4) x1 := rfl

/-- The second round. -/
theorem round2_eq (x0 : (⟨S100000x128, .f32⟩ : BufTy).Contents (Elt Ideal)) (x1 : (⟨S2x1600000, .i32⟩ : BufTy).Contents (Elt Ideal)) (x2 : (⟨S128x128, .f32⟩ : BufTy).Contents (Elt Ideal)) (x3 : (⟨S128, .f32⟩ : BufTy).Contents (Elt Ideal)) (x4 : (⟨S128x128, .f32⟩ : BufTy).Contents (Elt Ideal)) (x5 : (⟨S128x128, .f32⟩ : BufTy).Contents (Elt Ideal)) (x6 : (⟨S128, .f32⟩ : BufTy).Contents (Elt Ideal)) (x7 : (⟨S128x128, .f32⟩ : BufTy).Contents (Elt Ideal)) :
    val_main_v55 (F := Ideal) x0 x1 x2 x3 x4 x5 x6 x7
      = hidden (val_main_v29 (F := Ideal) x0 x1 x2 x3 x4) (val_main_v48 (F := Ideal) x0 x1 x2 x3 x4) x5 x7 x6 := by
  funext j
  obtain ⟨p, q, rfl⟩ : ∃ (p : Fin 100000) (q : Fin 128), j = ix2 p q := ⟨j 0, j 1, eq_ix2 j⟩
  rw [hidden_apply, val_main_v55_apply, val_main_v54_apply, val_main_v52_apply, val_main_call1_v0_apply,
    val_main_call1_cst_apply, val_main_v51_apply, val_main_v50_apply, bias2_idx]
  unfold val_main_v49 val_main_v53
  rw [hostProduct_apply _ dot_plain, hostProduct_apply _ dot_plain]
  rw [Ideal.maximumf_def, Ideal.addf_def, Ideal.addf_def, Ideal.ofBits_def, Ideal.ofBits_zero_f32]
  exact hiddenAt_reassoc (val_main_v29 (F := Ideal) x0 x1 x2 x3 x4) (val_main_v48 (F := Ideal) x0 x1 x2 x3 x4) x5 x7 x6 p q

/-- The result: the read-out of the second round. -/
theorem out_eq (x0 : (⟨S100000x128, .f32⟩ : BufTy).Contents (Elt Ideal)) (x1 : (⟨S2x1600000, .i32⟩ : BufTy).Contents (Elt Ideal)) (x2 : (⟨S128x128, .f32⟩ : BufTy).Contents (Elt Ideal)) (x3 : (⟨S128, .f32⟩ : BufTy).Contents (Elt Ideal)) (x4 : (⟨S128x128, .f32⟩ : BufTy).Contents (Elt Ideal)) (x5 : (⟨S128x128, .f32⟩ : BufTy).Contents (Elt Ideal)) (x6 : (⟨S128, .f32⟩ : BufTy).Contents (Elt Ideal)) (x7 : (⟨S128x128, .f32⟩ : BufTy).Contents (Elt Ideal)) (x8 : (⟨S128x2, .f32⟩ : BufTy).Contents (Elt Ideal)) (x9 : (⟨S2, .f32⟩ : BufTy).Contents (Elt Ideal)) :
    val_main_v59 (F := Ideal) x0 x1 x2 x3 x4 x5 x6 x7 x8 x9
      = score (val_main_v29 (F := Ideal) x0 x1 x2 x3 x4) (val_main_v48 (F := Ideal) x0 x1 x2 x3 x4) x5 x7 x6 x8 x9 := by
  funext j
  obtain ⟨p, q, rfl⟩ : ∃ (p : Fin 100000) (q : Fin 2), j = ix2 p q := ⟨j 0, j 1, eq_ix2 j⟩
  rw [score_apply, val_main_v59_apply, val_main_v58_apply, val_main_v57_apply, bias3_idx]
  unfold val_main_v56
  rw [hostProduct_apply _ dot_out_plain, round2_eq, Ideal.addf_def]
  rfl

/-- The reference's result is the network of the specification over the reference's own neighbourhood mean. -/
theorem result_eq (x0 : (⟨S100000x128, .f32⟩ : BufTy).Contents (Elt Ideal)) (x1 : (⟨S2x1600000, .i32⟩ : BufTy).Contents (Elt Ideal)) (x2 : (⟨S128x128, .f32⟩ : BufTy).Contents (Elt Ideal)) (x3 : (⟨S128, .f32⟩ : BufTy).Contents (Elt Ideal)) (x4 : (⟨S128x128, .f32⟩ : BufTy).Contents (Elt Ideal)) (x5 : (⟨S128x128, .f32⟩ : BufTy).Contents (Elt Ideal)) (x6 : (⟨S128, .f32⟩ : BufTy).Contents (Elt Ideal)) (x7 : (⟨S128x128, .f32⟩ : BufTy).Contents (Elt Ideal)) (x8 : (⟨S128x2, .f32⟩ : BufTy).Contents (Elt Ideal)) (x9 : (⟨S2, .f32⟩ : BufTy).Contents (Elt Ideal)) :
    val_main_v59 (F := Ideal) x0 x1 x2 x3 x4 x5 x6 x7 x8 x9
      = net (fun f => val_main_v22 (F := Ideal) f x1) x0 x2 x3 x4 x5 x6 x7 x8 x9 := by
  rw [out_eq, mean2_eq, round1_eq]
  rfl

end Cert.ReferenceIdeal.RefValue

end
-- ==== Proof.lean ====
/-
  Two layers of GraphSAGE with mean aggregation and a linear read-out, over 100000 nodes and 1600000 edges: the Pallas
  program against its jnp reference, equal over the extended reals.

  Both programs compute
      out = max(mean(h)·W2l + h·W2r + b2, 0)·Wfc + bfc,   h = max(mean(x)·W1l + x·W1r + b1, 0),
  where mean(f) is, for each node, the sum of f over the sources of its incoming edges divided by the number of those
  edges or by one. Both obtain the mean by the same host operations (gather, two scatter-adds, a maximum, a division), so it
  is carried as one function and never opened (`mean_eq`). The kernel's program does the dense part in two kernel calls, 5000
  rows at a time, with factors narrowed to bfloat16 on the way into the matrix unit (the identity over the extended reals);
  the reference does it with whole-array products. The one algebraic difference is where the bias is added: the kernel
  forms (a·Wl + h·Wr) + b, the reference (a·Wl + b) + h·Wr, and addition on the extended reals is commutative and
  associative, so no entry need be finite and the precondition is not used.

  Modules: SageSpec (the network, entry by entry), Round1 and Round2 (each kernel call's output array as one function of
  the arrays it finds), KHost (what the host operations leave for the calls), KValue (the kernel program's result), KRun
  (its run with the result named), RefSide (the reference's stages as the same network); here, the five claims.
-/
import proofs.«149914_j55783035240725_1_alg».proof.Defs
import proofs.«149914_j55783035240725_1_alg».proof.Proof.Gen.Kernel
import proofs.«149914_j55783035240725_1_alg».proof.Proof.Gen.Kernel.Frame
import proofs.«149914_j55783035240725_1_alg».proof.Proof.Gen.KernelIdeal
import proofs.«149914_j55783035240725_1_alg».proof.Proof.Gen.KernelIdeal.Frame
import proofs.«149914_j55783035240725_1_alg».proof.Proof.Gen.ReferenceIdeal
import proofs.«149914_j55783035240725_1_alg».proof.Proof.Gen.ReferenceIdeal.Run
import proofs.«149914_j55783035240725_1_alg».proof.Proof.Gen.ReferenceIdeal.Read
import proofs.«149914_j55783035240725_1_alg».proof.Proof.Gen.Pre_finite_inputs
import proofs.«149914_j55783035240725_1_alg».proof.Proof.KRun
import proofs.«149914_j55783035240725_1_alg».proof.Proof.KValue
import proofs.«149914_j55783035240725_1_alg».proof.Proof.RefSide
import Idealize.ShloMosaic.Adequacy
import Idealize.ShloMosaic.Init

noncomputable section

namespace Cert.Proof

open Idealize.ShloMosaic Idealize.ShloMosaic.TcCoe Idealize.SL.Sem Sage

/-- The two programs' neighbourhood means are one function: the same operations over the same literal shapes. -/
theorem mean_eq (ei : (⟨Cert.ReferenceIdeal.S2x1600000, .i32⟩ : BufTy).Contents (Elt Ideal))
    (f : (⟨Cert.ReferenceIdeal.S100000x128, .f32⟩ : BufTy).Contents (Elt Ideal)) :
    Cert.ReferenceIdeal.Read.val_main_v22 (F := Ideal) f ei
      = Cert.KernelIdeal.HostSide.meanOf (F := Ideal) (Cert.KernelIdeal.HostSide.srcOf ei) (Cert.KernelIdeal.HostSide.dstOf ei) f := rfl

theorem frame_k : Cert.frame_Kernel := fun m ρ _ => Cert.Kernel.Gen.frame m ρ

theorem frame_ki : Cert.frame_KernelIdeal := fun m ρ _ => Cert.KernelIdeal.Gen.frame m ρ

/-- The reference has no kernel call: its frame is its run with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- Both programs end with the network of the specification over the launch's arguments. -/
theorem algebraic : Cert.algebraic_KernelIdeal_ReferenceIdeal := by
  intro m ρ m' ρ' _ hagree
  refine ⟨fun c => net (Cert.KernelIdeal.KValue.meanK m c) (m ((c.tc : Thread Cert.KernelIdeal.nD Cert.KernelIdeal.τ).loc Cert.KernelIdeal.main_arg0)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)), ?_, ?_⟩
  · exact (θ_run Cert.KernelIdeal.defs _ _).mono
      (fun r h c => ⟨(h c).1.trans (Cert.KernelIdeal.KValue.result m ρ c), (h c).2⟩)
      (Cert.KernelIdeal.Gen.run_named m ρ)
  · refine (θ_run Cert.ReferenceIdeal.defs _ _).mono (fun r h c => ⟨(h c).1.trans ?_, (h c).2⟩)
      (Cert.ReferenceIdeal.Value.run (F := Ideal) m' ρ')
    obtain ⟨a0, a1, a2, a3, a4, a5, a6, a7, a8, a9⟩ := hagree c
    rw [Cert.ReferenceIdeal.Read.val_main_v59_eq, Cert.ReferenceIdeal.RefValue.result_eq, a0, a1, a2, a3, a4, a5, a6, a7, a8, a9]
    exact congrArg (fun a => net a _ _ _ _ _ _ _ _ _) (funext fun f => mean_eq _ f)

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
